-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S9x64x128 : Shape := ⟨3, ![9, 64, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S9x64x128 : S_.BroadcastsInDim S9x64x128 (![] : Fin 0 → Fin S9x64x128.rank)
  reducesTo_S9x64x128_S_d0_1_2 : S9x64x128.ReducesTo [0, 1, 2] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v27 : IVec S_ 1) (main_v32 : IVec S1600000 1) (main_c_12 : IVec S_ 1) : IVec S_ 1 :=
  let main_v33 : IVec S_ 1 := (fun x v => Host.reduce IntOp.andi x v reducesTo_S1600000_S_d0 h_S_) main_v32 main_c_12
  let main_v34 : IVec S_ 1 := andi main_v27 main_v33
  main_v34

def fn_part1 {F : FTy → Type} [FloatOps F] (main_arg3 : IVec S1600000 32) (main_arg4 : IVec S1600000 32) (main_arg5 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg3 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  let main_c_7 : IVec S_ 32 := constantI S_ 32 0#32
  let main_v21 : IVec S1600000 32 := broadcastInDim S1600000 ![] bcast_S_S1600000 main_c_7
  let main_v22 : IVec S1600000 1 := cmpi .sge main_arg4 main_v21
  let main_c_8 : IVec S_ 32 := constantI S_ 32 100000#32
  let main_v23 : IVec S1600000 32 := broadcastInDim S1600000 ![] bcast_S_S1600000 main_c_8
  let main_v24 : IVec S1600000 1 := cmpi .slt main_arg4 main_v23
  let main_v25 : IVec S1600000 1 := andi main_v22 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v20 main_v26
  let main_c_10 : IVec S_ 32 := constantI S_ 32 0#32
  let main_v28 : IVec S1600000 32 := broadcastInDim S1600000 ![] bcast_S_S1600000 main_c_10
  let main_v29 : IVec S1600000 1 := cmpi .sge main_arg5 main_v28
  let main_c_11 : IVec S_ 32 := constantI S_ 32 9#32
  let main_v30 : IVec S1600000 32 := broadcastInDim S1600000 ![] bcast_S_S1600000 main_c_11
  let main_v31 : IVec S1600000 1 := cmpi .slt main_arg5 main_v30
  let main_v32 : IVec S1600000 1 := andi main_v29 main_v31
  let main_c_12 : IVec S_ 1 := constantI S_ 1 1#1
  fn_part2 (F := F) main_v27 main_v32 main_c_12

def fn {F : FTy → Type} [FloatOps F] (main_arg0 : FVec F S100000x128 .f32) (main_arg1 : FVec F S100000x1 .f32) (main_arg2 : FVec F S9x64x128 .f32) (main_arg3 : IVec S1600000 32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S9x64x128 .f32 := Host.absf main_arg2
  let main_cst_2 : FVec F S_ .f32 := constant S_ .f32 0x7F800000#32
  let main_v10 : FVec F S9x64x128 .f32 := broadcastInDim S9x64x128 ![] bcast_S_S9x64x128 main_cst_2
  let main_v11 : IVec S9x64x128 1 := cmpf .olt main_v9 main_v10
  let main_c_3 : IVec S_ 1 := constantI S_ 1 1#1
  let main_v12 : IVec S_ 1 := (fun x v => Host.reduce IntOp.andi x v reducesTo_S9x64x128_S_d0_1_2 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg3 main_v14
  let main_c_5 : IVec S_ 32 := constantI S_ 32 100000#32
  fn_part1 (F := F) main_arg3 main_arg4 main_arg5 main_v13 main_v15 main_c_5
-- ==== Kernel.lean ====
abbrev S100000x128 : Shape := ⟨2, ![100000, 128]⟩
abbrev S100000x1 : Shape := ⟨2, ![100000, 1]⟩
abbrev S9x64x128 : Shape := ⟨3, ![9, 64, 128]⟩
abbrev S1600000 : Shape := ⟨1, ![1600000]⟩
abbrev S9x100000x64 : Shape := ⟨3, ![9, 100000, 64]⟩
abbrev S4000x128 : Shape := ⟨2, ![4000, 128]⟩
abbrev S4000x1 : Shape := ⟨2, ![4000, 1]⟩
abbrev S1x64x128 : Shape := ⟨3, ![1, 64, 128]⟩
abbrev S1x4000x64 : Shape := ⟨3, ![1, 4000, 64]⟩
abbrev S64x128 : Shape := ⟨2, ![64, 128]⟩
abbrev S4000x64 : Shape := ⟨2, ![4000, 64]⟩
abbrev S900000x64 : Shape := ⟨2, ![900000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000x9x64 : Shape := ⟨3, ![100000, 9, 64]⟩
abbrev S100000x576 : Shape := ⟨2, ![100000, 576]⟩
abbrev S2000x576 : Shape := ⟨2, ![2000, 576]⟩
abbrev S2000x1 : Shape := ⟨2, ![2000, 1]⟩

abbrev nBuf : Space → Nat
  | .hbm => 54
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S9x64x128, .f32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S9x100000x64, .f32⟩
  | .hbm, ⟨7, _⟩ => ⟨S900000x64, .f32⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1, .i32⟩
  | .hbm, ⟨25, _⟩ => ⟨S_, .i32⟩
  | .hbm, ⟨26, _⟩ => ⟨S1600000x1, .i32⟩
  | .hbm, ⟨27, _⟩ => ⟨S1600000x1, .i1⟩
  | .hbm, ⟨28, _⟩ => ⟨S1x1, .i32⟩
  | .hbm, ⟨29, _⟩ => ⟨S1600000x1, .i32⟩
  | .hbm, ⟨30, _⟩ => ⟨S1600000x1, .i1⟩
  | .hbm, ⟨31, _⟩ => ⟨S1600000x1, .i1⟩
  | .hbm, ⟨32, _⟩ => ⟨S_, .i1⟩
  | .hbm, ⟨33, _⟩ => ⟨S1600000, .i1⟩
  | .hbm, ⟨34, _⟩ => ⟨S1600000x64, .f32⟩
  | .hbm, ⟨35, _⟩ => ⟨S1600000x64, .i1⟩
  | .hbm, ⟨36, _⟩ => ⟨S_, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S900000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S900000x64, .f32⟩
  | .hbm, ⟨50, _⟩ => ⟨S9x100000x64, .f32⟩
  | .hbm, ⟨51, _⟩ => ⟨S100000x9x64, .f32⟩
  | .hbm, ⟨52, _⟩ => ⟨S100000x576, .f32⟩
  | .hbm, ⟨53, _⟩ => ⟨S100000x576, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S1x64x128, .f32⟩
  | .local _ .vmem, ⟨5, _⟩ => ⟨S1x64x128, .f32⟩
  | .local _ .vmem, ⟨6, _⟩ => ⟨S1x4000x64, .f32⟩
  | .local _ .vmem, ⟨7, _⟩ => ⟨S1x4000x64, .f32⟩
  | .local _ .vmem, ⟨8, _⟩ => ⟨S2000x576, .f32⟩
  | .local _ .vmem, ⟨9, _⟩ => ⟨S2000x576, .f32⟩
  | .local _ .vmem, ⟨10, _⟩ => ⟨S2000x1, .f32⟩
  | .local _ .vmem, ⟨11, _⟩ => ⟨S2000x1, .f32⟩
  | .local _ .vmem, ⟨12, _⟩ => ⟨S2000x576, .f32⟩
  | .local _ .vmem, ⟨13, _⟩ => ⟨S2000x576, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_c_1 : Ref sig .tc := ⟨.hbm, 41, rfl⟩
abbrev main_v10 : Ref sig .tc := ⟨.hbm, 42, rfl⟩
abbrev main_v11 : Ref sig .tc := ⟨.hbm, 43, rfl⟩
abbrev main_c_2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![25, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x576 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S4000x1_S4000x1_0_0 : ∀ a, (![0, 0] : Fin 2 → Nat) a + S4000x1.size a ≤ S4000x1.size a
  h_S4000x1 : 0 < S4000x1.numel
  broadcasts_S4000x1_S4000x64 : S4000x1.Broadcasts S4000x64
  inb_S1x4000x64_S1x4000x64_0_0_0 : ∀ a, (![0, 0, 0] : Fin 3 → Nat) a + S1x4000x64.size a ≤ S1x4000x64.size a
  h_S1x4000x64 : 0 < S1x4000x64.numel
  shapeCasts_S1x4000x64_S4000x64 : S1x4000x64.ShapeCasts S4000x64
  shapeCasts_S4000x64_S1x4000x64 : S4000x64.ShapeCasts S1x4000x64
  shapeCasts_S9x100000x64_S900000x64 : S9x100000x64.ShapeCasts S900000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S900000x64 : S_.BroadcastsInDim S900000x64 (![] : Fin 0 → Fin S900000x64.rank)
  shapeCasts_S900000x64_S9x100000x64 : S900000x64.ShapeCasts S9x100000x64
  transposes_S9x100000x64_S100000x9x64_1_0_2 : S9x100000x64.Transposes [1, 0, 2] S100000x9x64
  shapeCasts_S100000x9x64_S100000x576 : S100000x9x64.ShapeCasts S100000x576
  inb_S2000x576_S2000x576_0_0 : ∀ a, (![0, 0] : Fin 2 → Nat) a + S2000x576.size a ≤ S2000x576.size a
  h_S2000x576 : 0 < S2000x576.numel
  shapeCasts_S2000x576_S2000x576 : S2000x576.ShapeCasts S2000x576
  inb_S2000x1_S2000x1_0_0 : ∀ a, (![0, 0] : Fin 2 → Nat) a + S2000x1.size a ≤ S2000x1.size a
  h_S2000x1 : 0 < S2000x1.numel
  broadcasts_S2000x1_S2000x576 : S2000x1.Broadcasts S2000x576
  dot_S4000x128_S64x128_S4000x64_1_1_0_0_n_n_wf : DotDims.WF S4000x128 S64x128 S4000x64 [1] [1] [0] [0] [] []
  gather_S900000x64_S1600000x1_S1600000x64_1_0_n_n_0_1_164_wf : GatherDims.WF S900000x64 S1600000x1 S1600000x64 [1] [0] [] [0] [] 1 ![1, 64]
  scatter_S900000x64_S1600000x1_S1600000x64_1_0_0_1_wf : ScatterDims.WF S900000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S9x64x128.size a
  hwx0_2 : ∀ i : grid0.Coords, EltTy.bits .f32 = 32 ∨ (Rect.block (s := S9x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4000x64.size a ≤ S9x100000x64.size a
  hwx0_3 : ∀ i : grid0.Coords, EltTy.bits .f32 = 32 ∨ (Rect.block (s := S9x100000x64) S1x4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x576.size a ≤ S100000x576.size a
  hwx1_0 : ∀ i : grid1.Coords, EltTy.bits .f32 = 32 ∨ (Rect.block (s := S100000x576) S2000x576.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x576.size a ≤ S100000x576.size a
  hwx1_2 : ∀ i : grid1.Coords, EltTy.bits .f32 = 32 ∨ (Rect.block (s := S100000x576) S2000x576.size (cc1_transform_2 i) (hinb1_2 i)).WholeWords (EltTy.packing .f32)

variable [Facts₀]

def dot_S4000x128_S64x128_S4000x64_1_1_0_0_n_n : DotDims S4000x128 S64x128 S4000x64 where
  lhsContracting := [1]
  rhsContracting := [1]
  lhsNonContracting := [0]
  rhsNonContracting := [0]
  lhsBatch := []
  rhsBatch := []
  wf := dot_S4000x128_S64x128_S4000x64_1_1_0_0_n_n_wf
def gather_S900000x64_S1600000x1_S1600000x64_1_0_n_n_0_1_164 : GatherDims S900000x64 S1600000x1 S1600000x64 where
  offsetDims := [1]
  collapsedSliceDims := [0]
  operandBatchingDims := []
  startIndicesBatchingDims := []
  startIndexMap := [0]
  indexVectorDim := 1
  sliceSizes := ![1, 64]
  wf := gather_S900000x64_S1600000x1_S1600000x64_1_0_n_n_0_1_164_wf
def scatter_S900000x64_S1600000x1_S1600000x64_1_0_0_1 : ScatterDims S900000x64 S1600000x1 S1600000x64 where
  updateWindowDims := [1]
  insertedWindowDims := [0]
  scatterDimsToOperandDims := [0]
  indexVectorDim := 1
  wf := scatter_S900000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x576.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S9x64x128 : Shape := ⟨3, ![9, 64, 128]⟩
abbrev S1600000 : Shape := ⟨1, ![1600000]⟩
abbrev S9x64x100000 : Shape := ⟨3, ![9, 64, 100000]⟩
abbrev S9x100000x64 : Shape := ⟨3, ![9, 100000, 64]⟩
abbrev S1x100000x1 : Shape := ⟨3, ![1, 100000, 1]⟩
abbrev S_ : Shape := ⟨0, ![]⟩
abbrev S1600000x1 : Shape := ⟨2, ![1600000, 1]⟩
abbrev S1600000x2 : Shape := ⟨2, ![1600000, 2]⟩
abbrev S1600000x64 : Shape := ⟨2, ![1600000, 64]⟩
abbrev S100000x9x64 : Shape := ⟨3, ![100000, 9, 64]⟩
abbrev S100000x576 : Shape := ⟨2, ![100000, 576]⟩

abbrev nBuf : Space → Nat
  | .hbm => 56
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S9x64x128, .f32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S9x64x100000, .f32⟩
  | .hbm, ⟨7, _⟩ => ⟨S9x100000x64, .f32⟩
  | .hbm, ⟨8, _⟩ => ⟨S1x100000x1, .f32⟩
  | .hbm, ⟨9, _⟩ => ⟨S9x100000x64, .f32⟩
  | .hbm, ⟨10, _⟩ => ⟨S9x100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x1, .i32⟩
  | .hbm, ⟨27, _⟩ => ⟨S1600000x2, .i32⟩
  | .hbm, ⟨28, _⟩ => ⟨S1600000x64, .f32⟩
  | .hbm, ⟨29, _⟩ => ⟨S_, .f32⟩
  | .hbm, ⟨30, _⟩ => ⟨S9x100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x1, .i32⟩
  | .hbm, ⟨47, _⟩ => ⟨S1600000x2, .i32⟩
  | .hbm, ⟨48, _⟩ => ⟨S9x100000x64, .f32⟩
  | .hbm, ⟨49, _⟩ => ⟨S100000x9x64, .f32⟩
  | .hbm, ⟨50, _⟩ => ⟨S100000x576, .f32⟩
  | .hbm, ⟨51, _⟩ => ⟨S100000x576, .f32⟩
  | .hbm, ⟨52, _⟩ => ⟨S100000x576, .f32⟩
  | .hbm, ⟨53, _⟩ => ⟨S_, .f32⟩
  | .hbm, ⟨54, _⟩ => ⟨S100000x576, .f32⟩
  | .hbm, ⟨55, _⟩ => ⟨S100000x576, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  transposes_S9x64x100000_S9x100000x64_0_2_1 : S9x64x100000.Transposes [0, 2, 1] S9x100000x64
  bcast_S100000x1_S1x100000x1_1_2 : S100000x1.BroadcastsInDim S1x100000x1 (![1, 2] : Fin 2 → Fin S1x100000x1.rank)
  bcast_S1x100000x1_S9x100000x64_0_1_2 : S1x100000x1.BroadcastsInDim S9x100000x64 (![0, 1, 2] : Fin 3 → Fin S9x100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S9x100000x64 : S_.BroadcastsInDim S9x100000x64 (![] : Fin 0 → Fin S9x100000x64.rank)
  transposes_S9x100000x64_S100000x9x64_1_0_2 : S9x100000x64.Transposes [1, 0, 2] S100000x9x64
  shapeCasts_S100000x9x64_S100000x576 : S100000x9x64.ShapeCasts S100000x576
  bcast_S100000x1_S100000x576_0_1 : S100000x1.BroadcastsInDim S100000x576 (![0, 1] : Fin 2 → Fin S100000x576.rank)
  bcast_S_S100000x576 : S_.BroadcastsInDim S100000x576 (![] : Fin 0 → Fin S100000x576.rank)
  dot_S9x64x128_S100000x128_S9x64x100000_2_1_01_0_n_n_wf : DotDims.WF S9x64x128 S100000x128 S9x64x100000 [2] [1] [0, 1] [0] [] []
  gather_S9x100000x64_S1600000x2_S1600000x64_1_01_n_n_01_1_1164_wf : GatherDims.WF S9x100000x64 S1600000x2 S1600000x64 [1] [0, 1] [] [0, 1] [] 1 ![1, 1, 64]
  scatter_S9x100000x64_S1600000x2_S1600000x64_1_01_01_1_wf : ScatterDims.WF S9x100000x64 S1600000x2 S1600000x64 [1] [0, 1] [0, 1] 1

variable [Facts₀]

def dot_S9x64x128_S100000x128_S9x64x100000_2_1_01_0_n_n : DotDims S9x64x128 S100000x128 S9x64x100000 where
  lhsContracting := [2]
  rhsContracting := [1]
  lhsNonContracting := [0, 1]
  rhsNonContracting := [0]
  lhsBatch := []
  rhsBatch := []
  wf := dot_S9x64x128_S100000x128_S9x64x100000_2_1_01_0_n_n_wf
def gather_S9x100000x64_S1600000x2_S1600000x64_1_01_n_n_01_1_1164 : GatherDims S9x100000x64 S1600000x2 S1600000x64 where
  offsetDims := [1]
  collapsedSliceDims := [0, 1]
  operandBatchingDims := []
  startIndicesBatchingDims := []
  startIndexMap := [0, 1]
  indexVectorDim := 1
  sliceSizes := ![1, 1, 64]
  wf := gather_S9x100000x64_S1600000x2_S1600000x64_1_01_n_n_01_1_1164_wf
def scatter_S9x100000x64_S1600000x2_S1600000x64_1_01_01_1 : ScatterDims S9x100000x64 S1600000x2 S1600000x64 where
  updateWindowDims := [1]
  insertedWindowDims := [0, 1]
  scatterDimsToOperandDims := [0, 1]
  indexVectorDim := 1
  wf := scatter_S9x100000x64_S1600000x2_S1600000x64_1_01_01_1_wf

class Facts : Prop extends Facts₀ where

variable [Facts]
-- ==== Proof.EdgeChainDef.lean ====
/-
  Between the two launches the host gathers, for every edge, the projected row of the edge's (division, source) — through ONE
  row number `division · 100000 + source` into the projected array seen as `[900000, 64]` —, adds it into row
  `division · 100000 + destination` of a zero table `[900000, 64]`, and lays the divisions of the result side by side:
  `[900000, 64] → [9, 100000, 64] → [100000, 9, 64] → [100000, 576]`. Here that stretch is ONE function `edgeChain` of
  the projected array and the three edge lists.
-/
import proofs.«408371_j84593675862585_1_alg».proof.Proof.Gen.KernelIdeal
import Idealize.ShloMosaic.PureOps.Ideal

noncomputable section

namespace Cert.KernelIdeal.EdgeChain

open Cert.KernelIdeal Cert.KernelIdeal.Gen
open Idealize.ShloMosaic

/-- The row number `division · 100000 + node` of every edge, in 32-bit words. -/
def rowNumber (a5 a : IVec S1600000 32) : IVec S1600000 32 :=
  addi (muli a5 (broadcastInDim S1600000 ![] bcast_S_S1600000 (constantI S_ 32 100000#32))) a

/-- A negative row number counts from the end of the `900000` rows. -/
def fromEnd (x : IVec S1600000 32) : IVec S1600000 32 :=
  select (cmpi .slt x (broadcastInDim S1600000 ![] bcast_S_S1600000 (constantI S_ 32 0#32)))
    (addi x (broadcastInDim S1600000 ![] bcast_S_S1600000 (constantI S_ 32 900000#32))) x

/-- The row numbers as an `[1600000, 1]` column. -/
def column (x : IVec S1600000 32) : IVec S1600000x1 32 :=
  broadcastInDim S1600000x1 ![0] bcast_S1600000_S1600000x1_0 x

/-- Which edges' row numbers lie inside the table. -/
def inTable (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 899999#32)))))
    (constantI S_ 1 1#1) reducesTo_S1600000x1_S1600000_d1 h_S_

/-- The rows of `T` numbered `x`, one per edge; an edge whose row number is outside the table gets the fill word. -/
def takeRows (T : FVec Ideal S900000x64 .f32) (x : IVec S1600000 32) : FVec Ideal S1600000x64 .f32 :=
  select (broadcastInDim S1600000x64 ![0] bcast_S1600000_S1600000x64_0 (inTable (column (fromEnd x))))
    (Host.gather gather_S900000x64_S1600000x1_S1600000x64_1_0_n_n_0_1_164 T (column (fromEnd x)))
    (broadcastInDim S1600000x64 ![] bcast_S_S1600000x64 (constant S_ .f32 0x7FC00000#32))

/-- The edges' rows summed into a zero table at the rows numbered `x`. -/
def addRows (x : IVec S1600000 32) (U : FVec Ideal S1600000x64 .f32) : FVec Ideal S900000x64 .f32 :=
  Host.scatterAdd scatter_S900000x64_S1600000x1_S1600000x64_1_0_0_1
    (broadcastInDim S900000x64 ![] bcast_S_S900000x64 (constant S_ .f32 0x00000000#32)) (column (fromEnd x)) U

/-- The whole stretch: gather by (division, source), add by (division, destination), divisions side by side. -/
def edgeChain (P : FVec Ideal S9x100000x64 .f32) (a3 a4 a5 : IVec S1600000 32) : FVec Ideal S100000x576 .f32 :=
  shapeCast S100000x576
    (transpose S100000x9x64 [1, 0, 2]
      (shapeCast S9x100000x64
        (addRows (rowNumber a5 a4) (takeRows (shapeCast S900000x64 P shapeCasts_S9x100000x64_S900000x64) (rowNumber a5 a3)))
        shapeCasts_S900000x64_S9x100000x64)
      transposes_S9x100000x64_S100000x9x64_1_0_2)
    shapeCasts_S100000x9x64_S100000x576

end Cert.KernelIdeal.EdgeChain

end
-- ==== Proof.KernelHost.lean ====
/-
  The second launch's input array is `edgeChain` of the first launch's output: the three stretches of host operations
  between the launches, each run from any buffer contents, leave — the first, the flattened projected array and the two
  lists of row numbers; the second, the gathered rows; the third, the summed table re-laid — in their result buffers, and
  write no argument.
-/
import proofs.«408371_j84593675862585_1_alg».proof.Proof.Gen.KernelIdeal.Frame
import proofs.«408371_j84593675862585_1_alg».proof.Proof.EdgeChainDef
import Idealize.ShloMosaic.Lib.StableHlo.Run
import Idealize.ShloMosaic.PureOps.Ideal

set_option maxRecDepth 16384

noncomputable section

namespace Cert.KernelIdeal.EdgeChain

open Cert.KernelIdeal Cert.KernelIdeal.Gen
open Idealize.ShloMosaic Idealize.ShloMosaic.TcCoe Idealize.SL.Sem Idealize.ShloMosaic.StableHlo

variable (Wa : Valuation τ sig (Elt Ideal))

set_option maxHeartbeats 1000000 in
/-- The first stretch leaves the projected array flattened to `[900000, 64]`, -/
theorem flat_after : StableHlo.after hostOps1 Wa (Proc.devRef .tc main_v1)
    = shapeCast S900000x64 (Wa (Proc.devRef .tc main_v0)) shapeCasts_S9x100000x64_S900000x64 := by
  after_results
  rfl

set_option maxHeartbeats 1000000 in
/-- the row numbers `division · 100000 + source`, -/
theorem srcRows_after : StableHlo.after hostOps1 Wa (Proc.devRef .tc main_v4)
    = rowNumber (Wa (Proc.devRef .tc main_arg5)) (Wa (Proc.devRef .tc main_arg3)) := by
  after_results
  rfl

set_option maxHeartbeats 1000000 in
/-- and the row numbers `division · 100000 + destination`. -/
theorem dstRows_after : StableHlo.after hostOps1 Wa (Proc.devRef .tc main_v7)
    = rowNumber (Wa (Proc.devRef .tc main_arg5)) (Wa (Proc.devRef .tc main_arg4)) := by
  after_results
  rfl

/-- Contents sent into a buffer of their own type and read back are unchanged. -/
theorem ofBuf_toBuf {T : BufTy} (x : TRef sig T) (v : T.Contents (Elt Ideal)) : x.ofBuf (x.toBuf v) = v := by
  obtain ⟨r, h1, h2, h3⟩ := x
  subst h1
  rfl

set_option maxHeartbeats 4000000 in
/-- In the second stretch: the rows gathered at the (wrapped) row numbers, -/
theorem gathered_after : StableHlo.after hostOps1_1 Wa (Proc.devRef .tc main_call0_v13)
    = (TRef.of main_call0_v13 : TRef sig ⟨S1600000x64, .f32⟩).toBuf (Val := Elt Ideal)
        (Host.gather gather_S900000x64_S1600000x1_S1600000x64_1_0_n_n_0_1_164 (Wa (Proc.devRef .tc main_v1))
          (column (fromEnd (Wa (Proc.devRef .tc main_v4))))) := by
  after_results
  simp only [ofBuf_toBuf]
  dsimp only [TRef.ofBuf, cast_eq]
  unfold column fromEnd
  rfl

set_option maxHeartbeats 4000000 in
/-- the in-table test laid along the rows, -/
theorem mask_after : StableHlo.after hostOps1_1 Wa (Proc.devRef .tc main_call0_v14)
    = (TRef.of main_call0_v14 : TRef sig ⟨S1600000x64, .i1⟩).toBuf (Val := Elt Ideal)
        (broadcastInDim S1600000x64 ![0] bcast_S1600000_S1600000x64_0
          (inTable (column (fromEnd (Wa (Proc.devRef .tc main_v4)))))) := by
  after_results
  simp only [ofBuf_toBuf]
  dsimp only [TRef.ofBuf, cast_eq]
  unfold inTable column fromEnd
  rfl

set_option maxHeartbeats 4000000 in
/-- and the fill word everywhere. -/
theorem fill_after : StableHlo.after hostOps1_1 Wa (Proc.devRef .tc main_call0_v15)
    = (TRef.of main_call0_v15 : TRef sig ⟨S1600000x64, .f32⟩).toBuf (Val := Elt Ideal)
        (broadcastInDim S1600000x64 ![] bcast_S_S1600000x64 (constant (F := Ideal) S_ .f32 0x7FC00000#32)) := by
  after_results
  simp only [ofBuf_toBuf]

set_option maxHeartbeats 4000000 in
/-- Its last operation selects between the gathered rows and the fill word by the test. -/
theorem select_step : StableHlo.after hostOps1_1 Wa (Proc.devRef .tc main_v8)
    = (TRef.of main_v8 : TRef sig ⟨S1600000x64, .f32⟩).toBuf (Val := Elt Ideal)
        (select
          ((TRef.of main_call0_v14 : TRef sig ⟨S1600000x64, .i1⟩).ofBuf (Val := Elt Ideal)
            (StableHlo.after hostOps1_1 Wa (Proc.devRef .tc main_call0_v14)))
          ((TRef.of main_call0_v13 : TRef sig ⟨S1600000x64, .f32⟩).ofBuf (Val := Elt Ideal)
            (StableHlo.after hostOps1_1 Wa (Proc.devRef .tc main_call0_v13)))
          ((TRef.of main_call0_v15 : TRef sig ⟨S1600000x64, .f32⟩).ofBuf (Val := Elt Ideal)
            (StableHlo.after hostOps1_1 Wa (Proc.devRef .tc main_call0_v15)))) := by
  simp only [after_cons, after_nil]
  rw [ternary_result]
  rw [ternary_result_ne]; rotate_left; decide
  rw [ternary_result_ne]; rotate_left; decide
  rw [ternary_result_ne]; rotate_left; decide

set_option maxHeartbeats 4000000 in
/-- The second stretch leaves the gathered rows -/
theorem rows_after : StableHlo.after hostOps1_1 Wa (Proc.devRef .tc main_v8)
    = takeRows (Wa (Proc.devRef .tc main_v1)) (Wa (Proc.devRef .tc main_v4)) := by
  rw [select_step, mask_after, gathered_after, fill_after]
  simp only [ofBuf_toBuf]
  dsimp only [TRef.toBuf, cast_eq]
  unfold takeRows
  rfl

set_option maxHeartbeats 1000000 in
/-- and does not write the destinations' row numbers. -/
theorem dstRows_kept : StableHlo.after hostOps1_1 Wa (Proc.devRef .tc main_v7) = Wa (Proc.devRef .tc main_v7) := by
  after_results

set_option maxHeartbeats 2000000 in
/-- The third stretch leaves the summed table with the divisions side by side. -/
theorem sideBySide_after : StableHlo.after hostOps1_2 Wa (Proc.devRef .tc main_v19)
    = shapeCast S100000x576
        (transpose S100000x9x64 [1, 0, 2]
          (shapeCast S9x100000x64 (addRows (Wa (Proc.devRef .tc main_v7)) (Wa (Proc.devRef .tc main_v8)))
            shapeCasts_S900000x64_S9x100000x64)
          transposes_S9x100000x64_S100000x9x64_1_0_2)
        shapeCasts_S100000x9x64_S100000x576 := by
  after_results
  rfl

/-- From ANY buffer contents, after the host operations between the launches the aggregate's buffer holds `edgeChain` of the
    projected array's and the edge lists' buffers. -/
theorem after_stretch :
    StableHlo.after hostOps1_2 (StableHlo.after hostOps1_1 (StableHlo.after hostOps1 Wa)) (Proc.devRef .tc main_v19)
      = edgeChain (Wa (Proc.devRef .tc main_v0)) (Wa (Proc.devRef .tc main_arg3)) (Wa (Proc.devRef .tc main_arg4))
          (Wa (Proc.devRef .tc main_arg5)) := by
  rw [sideBySide_after, rows_after, dstRows_kept, flat_after, srcRows_after, dstRows_after]
  rfl

set_option maxHeartbeats 4000000 in
/-- The host operations between the launches write no argument: the norms' buffer keeps its contents. -/
theorem after_stretch_norm :
    StableHlo.after hostOps1_2 (StableHlo.after hostOps1_1 (StableHlo.after hostOps1 Wa)) (Proc.devRef .tc main_arg1)
      = Wa (Proc.devRef .tc main_arg1) := by
  after_results

end Cert.KernelIdeal.EdgeChain

end
-- ==== Proof.MessageSpec.lean ====
/-
  Message passing restricted to each division's edge subgraph, as ONE function of the inputs, over the extended reals.

  Nodes `n < 100000`, edges `e < 1600000`, divisions `d < 9`, input features `f < 128`, output features `o < 64`.
  Edge `e` goes from node `s e` to node `t e` and belongs to division `v e`.

  * `proj x ν w d n o = (∑ f, x[n, f] · w[d, o, f]) · ν[n]`: node `n`'s features through division `d`'s weights,
    scaled by the node's norm.
  * `agg P v s t d n o = ∑ e, [v e = d ∧ t e = n] · P (v e) (s e) o`: what the edges of division `d` that end in `n`
    carry from their source nodes, summed.
  * `out … n j = max (agg … (j / 64) n (j % 64) · ν[n]) 0`: the divisions laid side by side along the feature axis
    (column `j` is division `j / 64`, feature `j % 64`), scaled by the destination's norm, negative parts cut off.
-/
import Idealize.ShloMosaic.PureOps.Ideal
import Idealize.ShloMosaic.Lib.ValueIdx

noncomputable section

namespace Cert.DivisionMessages

open Idealize.ShloMosaic Idealize.ShloMosaic.ValueIdx

/-- Node features `[100000, 128]`. -/
abbrev Feat := (⟨2, ![100000, 128]⟩ : Shape).Idx → EReal
/-- Node norms `[100000, 1]`. -/
abbrev Norm := (⟨2, ![100000, 1]⟩ : Shape).Idx → EReal
/-- Per-division weights `[9, 64, 128]`. -/
abbrev Wts := (⟨3, ![9, 64, 128]⟩ : Shape).Idx → EReal

/-- Node `n`'s features through division `d`'s weights, scaled by the node's norm. -/
def proj (x : Feat) (ν : Norm) (w : Wts) (d : Fin 9) (n : Fin 100000) (o : Fin 64) : EReal :=
  (∑ f : Fin 128, x (ix2 n f) * w (ix3 d o f)) * ν (ix2 n 0)

/-- The sum, over the edges of division `d` that end in node `n`, of what `P` holds at the edge's division and source. -/
def agg (P : Fin 9 → Fin 100000 → Fin 64 → EReal) (v : Fin 1600000 → Fin 9) (s t : Fin 1600000 → Fin 100000)
    (d : Fin 9) (n : Fin 100000) (o : Fin 64) : EReal :=
  ∑ e : Fin 1600000, if v e = d ∧ t e = n then P (v e) (s e) o else 0

/-- Column `j` of the concatenated divisions is division `j / 64`. -/
def divOf (j : Fin 576) : Fin 9 := ⟨j.val / 64, by have := j.isLt; omega⟩
/-- Column `j` of the concatenated divisions is feature `j % 64` of its division. -/
def featOf (j : Fin 576) : Fin 64 := ⟨j.val % 64, Nat.mod_lt _ (by decide)⟩

/-- The aggregated messages `[100000, 576]`. -/
abbrev Agg := (⟨2, ![100000, 576]⟩ : Shape).Idx → EReal

/-- `proj` as an array `[9, 100000, 64]`. -/
def projArr (x : Feat) (ν : Norm) (w : Wts) : (⟨3, ![9, 100000, 64]⟩ : Shape).Idx → EReal :=
  fun i => proj x ν w (i 0) (i 1) (i 2)

/-- Row `n` scaled by node `n`'s norm, negative parts cut off. -/
def scaleCut (h : Agg) (ν : Norm) : Agg :=
  fun i => max (h i * ν (ix2 (i 0) 0)) 0

/-- The divisions' aggregates laid side by side along the feature axis, as an array `[100000, 576]`. -/
def aggArr (P : Fin 9 → Fin 100000 → Fin 64 → EReal) (v : Fin 1600000 → Fin 9) (s t : Fin 1600000 → Fin 100000) : Agg :=
  fun i => agg P v s t (divOf (i 1)) (i 0) (featOf (i 1))

/-- The layer's output at node `n`, column `j`. -/
def out (x : Feat) (ν : Norm) (w : Wts) (v : Fin 1600000 → Fin 9) (s t : Fin 1600000 → Fin 100000)
    (n : Fin 100000) (j : Fin 576) : EReal :=
  max (agg (proj x ν w) v s t (divOf j) n (featOf j) * ν (ix2 n 0)) 0

/-- The layer's output as an array `[100000, 576]`. -/
def outArr (x : Feat) (ν : Norm) (w : Wts) (v : Fin 1600000 → Fin 9) (s t : Fin 1600000 → Fin 100000) :
    (⟨2, ![100000, 576]⟩ : Shape).Idx → EReal :=
  fun i => out x ν w v s t (i 0) (i 1)

/-- The output is the side-by-side aggregates of `proj`, scaled and cut. -/
theorem outArr_eq (x : Feat) (ν : Norm) (w : Wts) (v : Fin 1600000 → Fin 9) (s t : Fin 1600000 → Fin 100000) :
    outArr x ν w v s t = scaleCut (aggArr (proj x ν w) v s t) ν := rfl

/-- The edge lists as the programs receive them (32-bit words, read signed) ARE the edge maps `v`, `s`, `t`: what
    "every index is in range" gives. -/
structure EdgesAre (a3 a4 a5 : IVec (⟨1, ![1600000]⟩ : Shape) 32)
    (v : Fin 1600000 → Fin 9) (s t : Fin 1600000 → Fin 100000) : Prop where
  src : ∀ e : Fin 1600000, (a3 (ix1 e)).toInt = ((s e).val : Int)
  dst : ∀ e : Fin 1600000, (a4 (ix1 e)).toInt = ((t e).val : Int)
  div : ∀ e : Fin 1600000, (a5 (ix1 e)).toInt = ((v e).val : Int)

end Cert.DivisionMessages

end
-- ==== Proof.LayoutAt.lean ====
/-
  The layout steps both programs share, read at an index, and row numbers `division · 100000 + node`.

  * `[9, 100000, 64]` seen as `[900000, 64]` (and back): row `d · 100000 + n` is `(d, n)`.
  * `[9, 100000, 64] → [100000, 9, 64]` swaps division and node.
  * `[100000, 9, 64]` seen as `[100000, 576]`: column `j` is division `j / 64`, feature `j % 64`.
-/
import proofs.«408371_j84593675862585_1_alg».proof.Proof.MessageSpec
import Idealize.ShloMosaic.Lib.Pipeline.Value
import Idealize.ShloMosaic.Lib.ValueIdx

namespace Cert.DivisionMessages

open Idealize.ShloMosaic Idealize.ShloMosaic.ValueIdx

variable {α : Type}

/-- The row of `(division d, node n)` among the `900000` rows. -/
def rowOf (d : Fin 9) (n : Fin 100000) : Fin 900000 :=
  ⟨d.val * 100000 + n.val, by have := d.isLt; have := n.isLt; omega⟩

/-- Two (division, node) pairs have the same row exactly when they are the same pair. -/
theorem rowOf_val_eq_iff (d d' : Fin 9) (n n' : Fin 100000) :
    d.val * 100000 + n.val = d'.val * 100000 + n'.val ↔ d = d' ∧ n = n' := by
  have := n.isLt; have := n'.isLt
  constructor
  · intro h; exact ⟨Fin.ext (by omega), Fin.ext (by omega)⟩
  · rintro ⟨rfl, rfl⟩; rfl

/-- Rows are equal exactly when division and node are. -/
theorem rowOf_eq_iff (d d' : Fin 9) (n n' : Fin 100000) : rowOf d n = rowOf d' n' ↔ d = d' ∧ n = n' := by
  rw [← rowOf_val_eq_iff d d' n n']
  exact ⟨fun h => congrArg Fin.val h, fun h => Fin.ext h⟩

/-- `[9, 100000, 64]` seen as `[900000, 64]`, read at row `rowOf d n`. -/
theorem flatten_apply (X : (⟨3, ![9, 100000, 64]⟩ : Shape).Idx → α)
    (pf : (⟨3, ![9, 100000, 64]⟩ : Shape).ShapeCasts ⟨2, ![900000, 64]⟩) (d : Fin 9) (n : Fin 100000) (o : Fin 64) :
    shapeCast ⟨2, ![900000, 64]⟩ X pf (ix2 (rowOf d n) o) = X (ix3 d n o) := by
  refine shapeCast_apply X pf (ix2 (rowOf d n) o) (ix3 d n o) ?_
  rewrite [Shape.rowMajor_val_three, Shape.rowMajor_val_two]
  show (d.val * 100000 + n.val) * 64 + o.val = (d.val * 100000 + n.val) * 64 + o.val
  rfl

/-- `[900000, 64]` seen as `[9, 100000, 64]`, read at `(d, n, o)`. -/
theorem unflatten_apply (X : (⟨2, ![900000, 64]⟩ : Shape).Idx → α)
    (pf : (⟨2, ![900000, 64]⟩ : Shape).ShapeCasts ⟨3, ![9, 100000, 64]⟩) (d : Fin 9) (n : Fin 100000) (o : Fin 64) :
    shapeCast ⟨3, ![9, 100000, 64]⟩ X pf (ix3 d n o) = X (ix2 (rowOf d n) o) := by
  refine shapeCast_apply X pf (ix3 d n o) (ix2 (rowOf d n) o) ?_
  rewrite [Shape.rowMajor_val_three, Shape.rowMajor_val_two]
  show (d.val * 100000 + n.val) * 64 + o.val = (d.val * 100000 + n.val) * 64 + o.val
  rfl

/-- Division and node swapped: `[9, 100000, 64] → [100000, 9, 64]`, read at `(n, d, o)`. -/
theorem nodeMajor_apply (X : (⟨3, ![9, 100000, 64]⟩ : Shape).Idx → α)
    (pf : (⟨3, ![9, 100000, 64]⟩ : Shape).Transposes [1, 0, 2] ⟨3, ![100000, 9, 64]⟩)
    (n : Fin 100000) (d : Fin 9) (o : Fin 64) :
    transpose ⟨3, ![100000, 9, 64]⟩ [1, 0, 2] X pf (ix3 n d o) = X (ix3 d n o) :=
  transpose_apply [1, 0, 2] X pf (ix3 n d o) (ix3 d n o) (fun b => match b with
    | ⟨0, _⟩ => rfl
    | ⟨1, _⟩ => rfl
    | ⟨2, _⟩ => rfl)

/-- The divisions side by side: `[100000, 9, 64]` seen as `[100000, 576]`, read at `(n, j)`. -/
theorem sideBySide_apply (X : (⟨3, ![100000, 9, 64]⟩ : Shape).Idx → α)
    (pf : (⟨3, ![100000, 9, 64]⟩ : Shape).ShapeCasts ⟨2, ![100000, 576]⟩) (n : Fin 100000) (j : Fin 576) :
    shapeCast ⟨2, ![100000, 576]⟩ X pf (ix2 n j) = X (ix3 n (divOf j) (featOf j)) := by
  refine shapeCast_apply X pf (ix2 n j) (ix3 n (divOf j) (featOf j)) ?_
  rewrite [Shape.rowMajor_val_three, Shape.rowMajor_val_two]
  have hj := j.isLt
  show (n.val * 9 + j.val / 64) * 64 + j.val % 64 = n.val * 576 + j.val
  omega

/-- A list as an `[n, 1]` column, read at `(e, 0)`. -/
theorem column_apply {n : Nat} (pf : (⟨1, ![n]⟩ : Shape).BroadcastsInDim ⟨2, ![n, 1]⟩ ![0])
    (x : (⟨1, ![n]⟩ : Shape).Idx → α) (e : Fin n) :
    broadcastInDim ⟨2, ![n, 1]⟩ ![0] pf x (ix2 e (0 : Fin 1)) = x (ix1 e) := by
  refine broadcastInDim_apply _ pf x (ix2 e (0 : Fin 1)) (ix1 e) (fun a => ?_)
  match a with
  | ⟨0, _⟩ =>
    show e.val = if n = 1 then 0 else e.val
    split
    · have := e.isLt; omega
    · rfl

/-- A list laid along the rows of an `[n, C]` array (constant along each row), read at `(e, o)`. -/
theorem alongRows_apply {n C : Nat} (pf : (⟨1, ![n]⟩ : Shape).BroadcastsInDim ⟨2, ![n, C]⟩ ![0])
    (x : (⟨1, ![n]⟩ : Shape).Idx → α) (e : Fin n) (o : Fin C) :
    broadcastInDim ⟨2, ![n, C]⟩ ![0] pf x (ix2 e o) = x (ix1 e) := by
  refine broadcastInDim_apply _ pf x (ix2 e o) (ix1 e) (fun a => ?_)
  match a with
  | ⟨0, _⟩ =>
    show e.val = if n = 1 then 0 else e.val
    split
    · have := e.isLt; omega
    · rfl

/-- Over the extended reals the host's accumulating scatter is the exact sum of the updates landing on each element. -/
theorem scatterAdd_eq_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-- Two `[n, 1]` columns side by side as `[n, 2]`: entry `(e, 0)` is the first column's. -/
theorem pair_left {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) :=
  concatenate_pair_apply_left 1 x₁ x₂ h (ix2 e (0 : Fin 2)) rfl (ix2 e (0 : Fin 1)) (fun b => match b with
    | ⟨0, _⟩ => rfl
    | ⟨1, _⟩ => rfl)

/-- … and entry `(e, 1)` is the second column's. -/
theorem pair_right {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) :=
  concatenate_pair_apply_right 1 x₁ x₂ h (ix2 e (1 : Fin 2)) rfl rfl (ix2 e (0 : Fin 1))
    (fun b hb => match b, hb with
      | ⟨0, _⟩, _ => rfl
      | ⟨1, _⟩, hb => absurd rfl hb)
    rfl

end Cert.DivisionMessages
-- ==== Proof.RowWords.lean ====
/-
  Row numbers in 32-bit words. For a division `d < 9` and a node `n < 100000` held in words that read signed as `d` and
  `n`, the word `division · 100000 + node` reads signed as `d · 100000 + n` (no wrap: it is below `900000`); it is not
  negative, so "count from the end if negative" leaves it alone, and it lies inside `[0, 899999]`.
-/
import Idealize.ShloMosaic.PureOps
import Idealize.ShloMosaic.Lib.Affine

namespace Cert.DivisionMessages

open Idealize.ShloMosaic

/-- A small nonnegative integer is its own balanced residue modulo `2 ^ 32`. -/
theorem bmod_small (a : Int) (h0 : 0 ≤ a) (h1 : a < 2147483648) : a.bmod 4294967296 = a := by
  rw [Int.bmod_def]
  split <;> omega

/-- The row-number word reads signed as `d · 100000 + n`. -/
theorem rowWord_toInt (x y : BitVec 32) (d : Fin 9) (n : Fin 100000) (hx : x.toInt = (d.val : Int)) (hy : y.toInt = (n.val : Int)) :
    (IntOp.addi (IntOp.muli x 100000#32) y).toInt = ((d.val * 100000 + n.val : Nat) : Int) := by
  have hd := d.isLt; have hn := n.isLt
  unfold IntOp.addi IntOp.muli
  rw [BitVec.toInt_add, BitVec.toInt_mul, hx, hy, show (100000#32 : BitVec 32).toInt = 100000 from by decide]
  rw [bmod_small ((d.val : Int) * 100000) (by omega) (by omega)]
  rw [bmod_small _ (by omega) (by omega)]
  omega

/-- A word that is not negative is left alone by "add the extent if negative". -/
theorem wrap_nonneg (w c : BitVec 32) (h : 0 ≤ w.toInt) :
    Scalar.select (IntOp.cmpi .slt w 0#32) (IntOp.addi w c) w = w := by
  unfold Scalar.select
  rw [if_neg]
  intro hc
  have hc' : IntOp.cmpi .slt w 0#32 = 1#1 := hc
  rw [IntOp.cmpi_slt, show (0#32 : BitVec 32).toInt = 0 from by decide] at hc'
  omega

/-- The same with the extent `900000` of the flattened table. -/
theorem fromEnd_nonneg (w : BitVec 32) (h : 0 ≤ w.toInt) :
    Scalar.select (IntOp.cmpi .slt w 0#32) (IntOp.addi w 900000#32) w = w := wrap_nonneg w _ h

/-- A word reading signed inside `[0, 899999]` passes both bounds tests. -/
theorem inTable_word (w : BitVec 32) (h0 : 0 ≤ w.toInt) (h1 : w.toInt ≤ 899999) :
    IntOp.andi (IntOp.cmpi .sge w 0#32) (IntOp.cmpi .sle w 899999#32) = 1#1 := by
  rw [IntOp.andi_eq_one, IntOp.cmpi_sge, IntOp.cmpi_sle, show (0#32 : BitVec 32).toInt = 0 from by decide,
    show (899999#32 : BitVec 32).toInt = 899999 from by decide]
  exact ⟨h0, h1⟩

/-- An `and`-fold that starts at one and meets only ones ends at one. -/
theorem foldl_andi_ones {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi (1#1 : BitVec 1) 1#1 = 1#1 from by decide]
    exact foldl_andi_ones g hg l

end Cert.DivisionMessages
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.KernelChainAt.lean ====
/-
  The host stretch between the launches, read at an index. When the edge lists ARE maps `v` (division), `s` (source),
  `t` (destination), the row number `division · 100000 + node` of an edge is the row of `(v e, s e)` resp. `(v e, t e)`
  among the `900000` rows, inside the table and not negative. So the gathered row of edge `e` is the projected row
  `(v e, s e)`, row `rowOf d n` of the summed table collects the edges with `(v e, t e) = (d, n)`, and after the
  re-layout the aggregate at `(n, j)` is `agg` at division `j / 64`, node `n`, feature `j % 64`.
-/
import proofs.«408371_j84593675862585_1_alg».proof.Proof.EdgeChainDef
import proofs.«408371_j84593675862585_1_alg».proof.Proof.MessageSpec
import proofs.«408371_j84593675862585_1_alg».proof.Proof.LayoutAt
import proofs.«408371_j84593675862585_1_alg».proof.Proof.RowWords
import proofs.«408371_j84593675862585_1_alg».proof.Proof.LibGatherRows
import proofs.«408371_j84593675862585_1_alg».proof.Proof.LibScatterAddRows
import Idealize.ShloMosaic.PureOps.Ideal.Laws

set_option maxRecDepth 16384

noncomputable section

namespace Cert.KernelIdeal.EdgeChain

open Cert.KernelIdeal Cert.KernelIdeal.Gen Cert.DivisionMessages
open Idealize.ShloMosaic Idealize.ShloMosaic.ValueIdx

/-- The row-number word of edge `e` reads signed as the row of `(v e, u e)`. -/
theorem rowNumber_toInt (a5 a : IVec S1600000 32) (v : Fin 1600000 → Fin 9) (u : Fin 1600000 → Fin 100000)
    (h5 : ∀ e : Fin 1600000, (a5 (ix1 e)).toInt = ((v e).val : Int))
    (ha : ∀ e : Fin 1600000, (a (ix1 e)).toInt = ((u e).val : Int)) (e : Fin 1600000) :
    (rowNumber a5 a (ix1 e)).toInt = (((rowOf (v e) (u e)).val : Nat) : Int) := by
  show (IntOp.addi (IntOp.muli (a5 (ix1 e)) 100000#32) (a (ix1 e))).toInt = _
  exact rowWord_toInt _ _ (v e) (u e) (h5 e) (ha e)

/-- A list of words that all read signed as rows of the table: as a column, after "count from the end if negative",
    entry `(e, 0)` is still word `e`. -/
theorem column_fromEnd (x : IVec S1600000 32) (r : Fin 1600000 → Fin 900000)
    (hx : ∀ e : Fin 1600000, (x (ix1 e)).toInt = ((r e).val : Int)) (e : Fin 1600000) :
    column (fromEnd x) (ix2 e (0 : Fin 1)) = x (ix1 e) := by
  unfold column
  rw [column_apply]
  show Scalar.select (IntOp.cmpi .slt (x (ix1 e)) 0#32) (IntOp.addi (x (ix1 e)) 900000#32) (x (ix1 e)) = _
  exact fromEnd_nonneg _ (by rw [hx e]; exact Int.natCast_nonneg _)

/-- Such a column lies inside the table at every edge. -/
theorem inTable_rows (x : IVec S1600000 32) (r : Fin 1600000 → Fin 900000)
    (hx : ∀ e : Fin 1600000, (x (ix1 e)).toInt = ((r e).val : Int)) (e : Fin 1600000) :
    inTable (column (fromEnd x)) (ix1 e) = 1#1 := by
  unfold inTable Host.reduce
  refine foldl_andi_ones (fun n => _) (fun n => ?_) _
  generalize S1600000x1.rowMajor.symm n = i
  obtain ⟨p, q, rfl⟩ : ∃ (p : Fin 1600000) (q : Fin 1), i = ix2 p q := ⟨i 0, i 1, eq_ix2 i⟩
  have hq : q = 0 := Subsingleton.elim _ _
  subst hq
  show IntOp.andi (IntOp.cmpi .sge (column (fromEnd x) (ix2 p (0 : Fin 1))) 0#32)
    (IntOp.cmpi .sle (column (fromEnd x) (ix2 p (0 : Fin 1))) 899999#32) = 1#1
  rw [column_fromEnd x r hx p]
  have hr := (r p).isLt
  exact inTable_word _ (by rw [hx p]; exact Int.natCast_nonneg _) (by rw [hx p]; omega)

/-- THE GATHERED ROWS: edge `e` gets row `r e` of the table. -/
theorem takeRows_apply (T : FVec Ideal S900000x64 .f32) (x : IVec S1600000 32) (r : Fin 1600000 → Fin 900000)
    (hx : ∀ e : Fin 1600000, (x (ix1 e)).toInt = ((r e).val : Int)) (e : Fin 1600000) (o : Fin 64) :
    takeRows T x (ix2 e o) = T (ix2 (r e) o) := by
  unfold takeRows
  show Scalar.select (broadcastInDim S1600000x64 ![0] bcast_S1600000_S1600000x64_0 (inTable (column (fromEnd x))) (ix2 e o))
    (Host.gather gather_S900000x64_S1600000x1_S1600000x64_1_0_n_n_0_1_164 T (column (fromEnd x)) (ix2 e o)) _ = _
  rw [alongRows_apply, inTable_rows x r hx e]
  unfold Scalar.select
  rw [if_pos (show (1#1 : BitVec 1) = 1 from rfl)]
  rw [show gather_S900000x64_S1600000x1_S1600000x64_1_0_n_n_0_1_164
      = GatherRows.rowDims 900000 64 1600000 gather_S900000x64_S1600000x1_S1600000x64_1_0_n_n_0_1_164_wf from rfl]
  rw [GatherRows.gather_rows_apply (by decide)]
  congr 1
  have hr := (r e).isLt
  have hc := column_fromEnd x r hx e
  refine congrArg (fun k => ix2 k o) (Fin.ext ?_)
  show min (column (fromEnd x) (ix2 e ⟨0, Nat.one_pos⟩)).toInt.toNat (900000 - 1) = (r e).val
  rw [show (ix2 e (⟨0, Nat.one_pos⟩ : Fin 1)) = ix2 e (0 : Fin 1) from rfl, hc, hx e]
  omega

/-- THE SUMMED TABLE: row `k` collects the edges whose row is `k`. -/
theorem addRows_apply (x : IVec S1600000 32) (U : FVec Ideal S1600000x64 .f32) (r : Fin 1600000 → Fin 900000)
    (hx : ∀ e : Fin 1600000, (x (ix1 e)).toInt = ((r e).val : Int)) (k : Fin 900000) (o : Fin 64) :
    addRows x U (ix2 k o) = ∑ e : Fin 1600000, if r e = k then U (ix2 e o) else 0 := by
  unfold addRows
  rw [scatterAdd_eq_ideal]
  rw [show scatter_S900000x64_S1600000x1_S1600000x64_1_0_0_1
      = ScatterAddRows.rowDims 900000 64 1600000 scatter_S900000x64_S1600000x1_S1600000x64_1_0_0_1_wf from rfl]
  rw [ScatterAddRows.scatterAdd_rows_apply]
  rw [show broadcastInDim S900000x64 ![] bcast_S_S900000x64 (constant (F := Ideal) S_ .f32 0x00000000#32) (ix2 k o)
      = Ideal.ofBits .f32 0x00000000#32 from rfl, Ideal.ofBits_zero_f32, zero_add]
  refine Finset.sum_congr rfl fun e _ => ?_
  rw [show (ix2 e (⟨0, Nat.one_pos⟩ : Fin 1)) = ix2 e (0 : Fin 1) from rfl, column_fromEnd x r hx e, hx e]
  by_cases hk : r e = k
  · rw [if_pos hk, if_pos (by rw [hk])]
  · rw [if_neg hk, if_neg (fun h => hk (Fin.ext (by exact_mod_cast h)))]

/-- THE STRETCH AT AN INDEX: the aggregate at `(n, j)`. -/
theorem edgeChain_apply (P : FVec Ideal S9x100000x64 .f32) (a3 a4 a5 : IVec S1600000 32)
    (v : Fin 1600000 → Fin 9) (s t : Fin 1600000 → Fin 100000) (h : EdgesAre a3 a4 a5 v s t)
    (n : Fin 100000) (j : Fin 576) :
    edgeChain P a3 a4 a5 (ix2 n j) = agg (fun d n o => P (ix3 d n o)) v s t (divOf j) n (featOf j) := by
  unfold edgeChain
  rw [sideBySide_apply, nodeMajor_apply, unflatten_apply]
  rw [addRows_apply (rowNumber a5 a4) _ (fun e => rowOf (v e) (t e)) (rowNumber_toInt a5 a4 v t h.div h.dst)]
  unfold agg
  refine Finset.sum_congr rfl fun e _ => ?_
  rw [takeRows_apply _ (rowNumber a5 a3) (fun e => rowOf (v e) (s e)) (rowNumber_toInt a5 a3 v s h.div h.src), flatten_apply]
  simp only [rowOf_eq_iff]

end Cert.KernelIdeal.EdgeChain

end
-- ==== Proof.ProjectRegion.lean ====
/-
  The first launch: every node's features through every division's weights, scaled by the node's norm.
  Grid point `(b, d)` handles nodes `4000 b … 4000 b + 3999` and division `d`; its block of the output `[9, 100000, 64]`
  is `(d, 4000 b …, all 64 features)`. The blocks tile the array, so after the launch the whole array is `proj`.
-/
import proofs.«408371_j84593675862585_1_alg».proof.Proof.Gen.KernelIdeal.Frame
import proofs.«408371_j84593675862585_1_alg».proof.Proof.MessageSpec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.ProjectRegion

open Cert.KernelIdeal Cert.KernelIdeal.Gen Idealize.ShloMosaic Idealize.ShloMosaic.TcCoe Idealize.SL.Sem
open Idealize.ShloMosaic.Pipeline (Dat)
open Idealize.ShloMosaic.ValueIdx Cert.DivisionMessages

variable (V : (c : Dev nD) → (b : Ref sig .tc) → Buf (Elt Ideal) ((c : Thread nD τ).loc b))

/-! ## The body's arithmetic at an index -/

/-- The row axis of the left operand of the product is the result's row … -/
theorem lhs_dot_0 (i : S4000x64.Idx) (k : dot_S4000x128_S64x128_S4000x64_1_1_0_0_n_n.contr.Idx) :
    (dot_S4000x128_S64x128_S4000x64_1_1_0_0_n_n.lhsIdx i k 0).val = (i 0).val := by
  unfold DotDims.lhsIdx
  rw [dif_neg (show ¬(0 : Fin S4000x128.rank) ∈ dot_S4000x128_S64x128_S4000x64_1_1_0_0_n_n.lhsBatch by decide), dif_pos (show (0 : Fin S4000x128.rank) ∈ dot_S4000x128_S64x128_S4000x64_1_1_0_0_n_n.lhsNonContracting by decide)]
  rfl
/-- … its column axis the summation index; -/
theorem lhs_dot_1 (i : S4000x64.Idx) (k : dot_S4000x128_S64x128_S4000x64_1_1_0_0_n_n.contr.Idx) :
    (dot_S4000x128_S64x128_S4000x64_1_1_0_0_n_n.lhsIdx i k 1).val = (k ⟨0, by decide⟩).val :=
  dot_S4000x128_S64x128_S4000x64_1_1_0_0_n_n.lhsIdx_val_of_single rfl i k
/-- the row axis of the right operand is the result's column … -/
theorem rhs_dot_0 (i : S4000x64.Idx) (k : dot_S4000x128_S64x128_S4000x64_1_1_0_0_n_n.contr.Idx) :
    (dot_S4000x128_S64x128_S4000x64_1_1_0_0_n_n.rhsIdx i k 0).val = (i 1).val := by
  unfold DotDims.rhsIdx
  rw [dif_neg (show ¬(0 : Fin S64x128.rank) ∈ dot_S4000x128_S64x128_S4000x64_1_1_0_0_n_n.rhsBatch by decide), dif_pos (show (0 : Fin S64x128.rank) ∈ dot_S4000x128_S64x128_S4000x64_1_1_0_0_n_n.rhsNonContracting by decide)]
  rfl
/-- … and its column axis the summation index. -/
theorem rhs_dot_1 (i : S4000x64.Idx) (k : dot_S4000x128_S64x128_S4000x64_1_1_0_0_n_n.contr.Idx) :
    (dot_S4000x128_S64x128_S4000x64_1_1_0_0_n_n.rhsIdx i k 1).val = (k ⟨0, by decide⟩).val :=
  dot_S4000x128_S64x128_S4000x64_1_1_0_0_n_n.rhsIdx_val_of_single rfl i k

/-- The product `a · bᵀ` into a zero accumulator, at row `p` and column `q`: the sum over the 128 shared features. -/
theorem prod_apply (a : FVec Ideal S4000x128 .bf16) (b : FVec Ideal S64x128 .bf16) (p : Fin 4000) (q : Fin 64) :
    matmul dot_S4000x128_S64x128_S4000x64_1_1_0_0_n_n none a b (constant (F := Ideal) S4000x64 .f32 0x00000000#32) (ix2 p q)
      = ∑ f : Fin 128, a (ix2 p f) * b (ix2 q f) := by
  show FloatOps.matmul dot_S4000x128_S64x128_S4000x64_1_1_0_0_n_n none a b (constant (F := Ideal) S4000x64 .f32 0x00000000#32) (ix2 p q) = _
  rw [Ideal.matmul_constant_zero_apply, ← Equiv.sum_comp (contrEquiv1 dot_S4000x128_S64x128_S4000x64_1_1_0_0_n_n 128 rfl rfl).symm]
  refine Finset.sum_congr rfl fun f _ => ?_
  have hf := contrEquiv1_symm_val dot_S4000x128_S64x128_S4000x64_1_1_0_0_n_n 128 rfl rfl f
  have el : dot_S4000x128_S64x128_S4000x64_1_1_0_0_n_n.lhsIdx (ix2 p q) ((contrEquiv1 dot_S4000x128_S64x128_S4000x64_1_1_0_0_n_n 128 rfl rfl).symm f) = ix2 p f := funext fun a => Fin.ext (by
    match a with
    | ⟨0, _⟩ => exact lhs_dot_0 _ _
    | ⟨1, _⟩ => exact (lhs_dot_1 _ _).trans hf)
  have er : dot_S4000x128_S64x128_S4000x64_1_1_0_0_n_n.rhsIdx (ix2 p q) ((contrEquiv1 dot_S4000x128_S64x128_S4000x64_1_1_0_0_n_n 128 rfl rfl).symm f) = ix2 q f := funext fun a => Fin.ext (by
    match a with
    | ⟨0, _⟩ => exact rhs_dot_0 _ _
    | ⟨1, _⟩ => exact (rhs_dot_1 _ _).trans hf)
  rw [el, er]

/-- A column `[4000, 1]` spread over 64 columns reads, at `(p, q)`, the column's entry `p`. -/
theorem spread_apply (v : FVec Ideal S4000x1 .f32) (p : Fin 4000) (q : Fin 64) :
    broadcastTo S4000x64 v broadcasts_S4000x1_S4000x64 (ix2 p q) = v (ix2 p 0) := by
  refine broadcastTo_apply v broadcasts_S4000x1_S4000x64 (ix2 p q) (ix2 p (0 : Fin 1)) fun ax => ?_
  match ax with
  | ⟨0, _⟩ => rfl
  | ⟨1, _⟩ => rfl

/-- What the body stores at row `p`, column `q` of its block: the row's features through the division's weights,
    scaled by the row's norm. -/
theorem payload_apply (x0 : Vec Ideal S4000x128 .f32) (x2 : Vec Ideal S1x64x128 .f32) (x6 : Vec Ideal S4000x1 .f32)
    (p : Fin 4000) (q : Fin 64) :
    k0_pay1 x0 x2 x6 (ix3 0 p q) = (∑ f : Fin 128, x0 (ix2 p f) * x2 (ix3 0 q f)) * x6 (ix2 p 0) := by
  unfold k0_pay1
  refine (shapeCast_ab_1ab_apply _ shapeCasts_S4000x64_S1x4000x64 0 p q).trans ?_
  refine (mulf_apply _ _ (ix2 p q)).trans ?_
  refine congrArg₂ (· * ·) ((prod_apply _ _ p q).trans ?_) (spread_apply x6 p q)
  refine Finset.sum_congr rfl fun f _ => ?_
  refine congrArg₂ (· * ·) (truncf_apply x0 bitsLt_bf16_f32 (ix2 p f)) ?_
  refine (truncf_apply _ bitsLt_bf16_f32 (ix2 q f)).trans ?_
  exact shapeCast_1ab_ab_apply x2 shapeCasts_S1x64x128_S64x128 q f

/-! ## Where each window's block sits, decided over the grid -/

theorem offsets_zero2 : (![0, 0] : Fin 2 → Nat) = fun _ => 0 := funext fun a => by fin_cases a <;> rfl
theorem offsets_zero3 : (![0, 0, 0] : Fin 3 → Nat) = fun _ => 0 := funext fun a => by fin_cases a <;> rfl

/-- At every grid point the feature and norm blocks are the output block's rows, the weight block is the output
    block's division, every other block index is zero, and the output's block indices stay in their ranges. -/
theorem block_indices : ∀ t : Fin cfg0.N,
    win0_0.index t (0 : Fin 2) = win0_3.index t (1 : Fin 3)
    ∧ win0_0.index t (1 : Fin 2) = 0
    ∧ win0_1.index t (0 : Fin 2) = win0_3.index t (1 : Fin 3)
    ∧ win0_1.index t (1 : Fin 2) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 8
    ∧ win0_3.index t (1 : Fin 3) ≤ 24
    ∧ win0_3.index t (2 : Fin 3) = 0 :=
  (by decide +kernel : ∀ t : Fin grid0.N, _)

/-- Every (division, row block) pair is some grid point's output block. -/
theorem block_indices_onto : ∀ (q0 : Fin 9) (q1 : Fin 25), ∃ t : Fin cfg0.N, win0_3.index t = ![q0.val, q1.val, 0] :=
  (by decide +kernel : ∀ (q0 : Fin 9) (q1 : Fin 25), ∃ t : Fin grid0.N, win0_3.index t = ![q0.val, q1.val, 0])

/-! ## The arrays and the blocks, by their literal types -/

/-- The node features the launch finds, -/
abbrev featArr (c : Dev nD) : Feat := V c main_arg0
/-- the node norms, -/
abbrev normArr (c : Dev nD) : Norm := V c main_arg1
/-- and the divisions' weights. -/
abbrev wtsArr (c : Dev nD) : Wts := V c main_arg2
/-- The block of features at a grid point, -/
abbrev featBlk (c : Dev nD) (t : Fin cfg0.N) : Vec Ideal S4000x128 .f32 := iblk0 V c 0 t
/-- of norms, -/
abbrev normBlk (c : Dev nD) (t : Fin cfg0.N) : Vec Ideal S4000x1 .f32 := iblk0 V c 1 t
/-- and of weights. -/
abbrev wtsBlk (c : Dev nD) (t : Fin cfg0.N) : Vec Ideal S1x64x128 .f32 := iblk0 V c 2 t

/-- Row `p` of the feature block at point `t` is row `4000 b + p` of the features, `b` the output's row block. -/
theorem featBlk_apply (c : Dev nD) (t : Fin cfg0.N) (p : Fin 4000) (f : Fin 128) (n : Fin 100000)
    (hn : n.val = win0_3.index t (1 : Fin 3) * 4000 + p.val) :
    featBlk V c t (ix2 p f) = featArr V c (ix2 n f) := by
  obtain ⟨e0, e1, -⟩ := block_indices t
  show V c main_arg0 (((cfg0.win 0).blk t).view.emb (ix2 p f)) = V c main_arg0 (ix2 n f)
  refine congrArg (V c main_arg0) (funext fun a => Fin.ext ?_)
  match a with
  | ⟨0, _⟩ => show win0_0.index t (0 : Fin 2) * 4000 + 1 * p.val = n.val; omega
  | ⟨1, _⟩ => show win0_0.index t (1 : Fin 2) * 128 + 1 * f.val = f.val; omega

/-- Row `p` of the norm block at point `t` is row `4000 b + p` of the norms. -/
theorem normBlk_apply (c : Dev nD) (t : Fin cfg0.N) (p : Fin 4000) (n : Fin 100000)
    (hn : n.val = win0_3.index t (1 : Fin 3) * 4000 + p.val) :
    normBlk V c t (ix2 p 0) = normArr V c (ix2 n 0) := by
  obtain ⟨-, -, e2, e3, -⟩ := block_indices t
  show V c main_arg1 (((cfg0.win 1).blk t).view.emb (ix2 p (0 : Fin 1))) = V c main_arg1 (ix2 n (0 : Fin 1))
  refine congrArg (V c main_arg1) (funext fun a => Fin.ext ?_)
  match a with
  | ⟨0, _⟩ => show win0_1.index t (0 : Fin 2) * 4000 + 1 * p.val = n.val; omega
  | ⟨1, _⟩ => show win0_1.index t (1 : Fin 2) * 1 + 1 * 0 = 0; omega

/-- The weight block at point `t` is the weights of the output block's division. -/
theorem wtsBlk_apply (c : Dev nD) (t : Fin cfg0.N) (q : Fin 64) (f : Fin 128) (d : Fin 9) (o : Fin 64)
    (hd : d.val = win0_3.index t (0 : Fin 3)) (ho : o.val = q.val) :
    wtsBlk V c t (ix3 0 q f) = wtsArr V c (ix3 d o f) := by
  obtain ⟨-, -, -, -, e4, e5, e6, -⟩ := block_indices t
  show V c main_arg2 (((cfg0.win 2).blk t).view.emb (ix3 (0 : Fin 1) q f)) = V c main_arg2 (ix3 d o f)
  refine congrArg (V c main_arg2) (funext fun a => Fin.ext ?_)
  match a with
  | ⟨0, _⟩ => show win0_2.index t (0 : Fin 3) * 1 + 1 * 0 = d.val; omega
  | ⟨1, _⟩ => show win0_2.index t (1 : Fin 3) * 64 + 1 * q.val = o.val; omega
  | ⟨2, _⟩ => show win0_2.index t (2 : Fin 3) * 128 + 1 * f.val = f.val; omega

/-- What the body stores at `(p, q)` of its block at point `t` is `proj` at the block's division, row `4000 b + p`
    and feature `q`. -/
theorem stored_apply (c : Dev nD) (t : Fin cfg0.N) (p : Fin 4000) (q : Fin 64) (d : Fin 9) (n : Fin 100000) (o : Fin 64)
    (hd : d.val = win0_3.index t (0 : Fin 3)) (hn : n.val = win0_3.index t (1 : Fin 3) * 4000 + p.val) (ho : o.val = q.val) :
    k0_pay1 (featBlk V c t) (wtsBlk V c t) (normBlk V c t) (ix3 0 p q)
      = proj (featArr V c) (normArr V c) (wtsArr V c) d n o := by
  refine (payload_apply (featBlk V c t) (wtsBlk V c t) (normBlk V c t) p q).trans ?_
  unfold proj
  exact congrArg₂ (· * ·)
    (Finset.sum_congr rfl fun f _ => congrArg₂ (· * ·) (featBlk_apply V c t p f n hn) (wtsBlk_apply V c t q f d o hd ho))
    (normBlk_apply V c t p n hn)

/-! ## What a grid point writes back -/

/-- What point `t` writes back is its block of `proj` of the arrays the launch found. -/
theorem written_back_eq (c : Dev nD) (t : Fin cfg0.N) :
    (dat0 (F := Ideal) V c).flushed 3 t
      = ((cfg0.win 3).blk t).view.read (Elt Ideal) (projArr (featArr V c) (normArr V c) (wtsArr V c)) := by
  show (cfg0.win 3).cut (grid0.coords t) ((dat0 (F := Ideal) V c).after 3 t) = _
  rw [after0_3]
  unfold out0_3
  rw [View.canon_unit_zero offsets_zero3]
  simp only [View.ld_unit_zero (S := S4000x128) offsets_zero2, View.ld_unit_zero (S := S1x64x128) offsets_zero3, View.ld_unit_zero (S := S4000x1) offsets_zero2]
  funext j
  obtain ⟨u, p, q, rfl⟩ : ∃ (u : Fin 1) (p : Fin 4000) (q : Fin 64), j = ix3 u p q := ⟨j 0, j 1, j 2, eq_ix3 j⟩
  obtain rfl : u = 0 := Fin.ext (by omega)
  have hx : (cfg0.win 3).xinj (grid0.coords t) (ix3 (0 : Fin 1) p q) = ix3 (0 : Fin 1) p q :=
    funext fun a => by match a with | ⟨0, _⟩ => rfl | ⟨1, _⟩ => rfl | ⟨2, _⟩ => rfl
  show k0_pay1 (featBlk V c t) (wtsBlk V c t) (normBlk V c t) ((cfg0.win 3).xinj (grid0.coords t) (ix3 (0 : Fin 1) p q))
    = projArr (featArr V c) (normArr V c) (wtsArr V c) (((cfg0.win 3).blk t).view.emb (ix3 (0 : Fin 1) p q))
  rw [hx]
  exact stored_apply V c t p q _ _ _
    (show win0_3.index t (0 : Fin 3) * 1 + 1 * 0 = win0_3.index t (0 : Fin 3) by omega)
    (show win0_3.index t (1 : Fin 3) * 4000 + 1 * p.val = win0_3.index t (1 : Fin 3) * 4000 + p.val by omega)
    (show win0_3.index t (2 : Fin 3) * 64 + 1 * q.val = q.val by
      obtain ⟨-, -, -, -, -, -, -, -, -, b2⟩ := block_indices t; omega)

/-! ## The blocks tile the array -/

/-- An index of the output array is in point `t`'s block iff each coordinate is in the block's range on its axis. -/
theorem mem_block_iff (t : Fin cfg0.N) (i : S9x100000x64.Idx) :
    i ∈ ((cfg0.win 3).blk t).view.set ↔ ∀ a : Fin 3, win0_3.index t a * S1x4000x64.size a ≤ (i a).val ∧ (i a).val < win0_3.index t a * S1x4000x64.size a + S1x4000x64.size a := by
  show i ∈ ((View.whole main_v0).slice (win0_3.rect t)).set ↔ _
  rw [View.set_slice_whole, Rect.mem_set_unit]
  exact Iff.rfl

/-- Every index `(d, n, o)` of the output array lies in the block of the point whose division is `d` and whose row
    block is `n / 4000`. -/
theorem covered (i : S9x100000x64.Idx) :
    ∃ t : Fin cfg0.N, (cfg0.win 3).flush t = true ∧ i ∈ ((cfg0.win 3).blk t).view.set := by
  have hi0 : (i 0).val < 9 := (i 0).isLt
  have hi1 : (i 1).val < 100000 := (i 1).isLt
  have hi2 : (i 2).val < 64 := (i 2).isLt
  obtain ⟨t, ht⟩ := block_indices_onto ⟨(i 0).val, hi0⟩ ⟨(i 1).val / 4000, by omega⟩
  have q0 : win0_3.index t (0 : Fin 3) = (i 0).val := congrFun ht 0
  have q1 : win0_3.index t (1 : Fin 3) = (i 1).val / 4000 := congrFun ht 1
  have q2 : win0_3.index t (2 : Fin 3) = 0 := congrFun ht 2
  refine ⟨t, flush0_3 t, ?_⟩
  rw [mem_block_iff]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4000 ≤ (i 1).val ∧ (i 1).val < win0_3.index t (1 : Fin 3) * 4000 + 4000; omega
  | ⟨2, _⟩ => show win0_3.index t (2 : Fin 3) * 64 ≤ (i 2).val ∧ (i 2).val < win0_3.index t (2 : Fin 3) * 64 + 64; omega

/-! ## The array after the launch -/

/-- After the first launch its output array holds `proj` of the arrays the launch found. -/
theorem final (c : Dev nD) :
    (dat0 (F := Ideal) V c).arrAt 3 cfg0.N
      = projArr (V c main_arg0) (V c main_arg1) (V c main_arg2) :=
  (dat0 (F := Ideal) V c).arrAt_eq_of_cover 3 (projArr (featArr V c) (normArr V c) (wtsArr V c))
    (fun t _ => written_back_eq V c t) covered

end Cert.KernelIdeal.ProjectRegion

end
-- ==== Proof.FinalizeRegion.lean ====
/-
  The second launch: the aggregated messages `[100000, 576]` scaled row by row by the destination's norm, negative parts cut off.
  Grid point `b` handles rows `2000 b … 2000 b + 1999`; the blocks tile the array.
-/
import proofs.«408371_j84593675862585_1_alg».proof.Proof.Gen.KernelIdeal.Frame
import proofs.«408371_j84593675862585_1_alg».proof.Proof.MessageSpec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.FinalizeRegion

open Cert.KernelIdeal Cert.KernelIdeal.Gen Idealize.ShloMosaic Idealize.ShloMosaic.TcCoe Idealize.SL.Sem
open Idealize.ShloMosaic.Pipeline (Dat)
open Idealize.ShloMosaic.ValueIdx Cert.DivisionMessages

variable (V : (c : Dev nD) → (b : Ref sig .tc) → Buf (Elt Ideal) ((c : Thread nD τ).loc b))

/-- The zero offsets are the constant zero. -/
theorem zero_offsets : (![0, 0] : Fin 2 → Nat) = fun _ => 0 := funext fun a => by fin_cases a <;> rfl

/-- A column `[2000, 1]` repeated along the second axis to `[2000, 576]`, read at `(p, q)`, is the column at row `p`. -/
theorem column_spread_apply (x : Vec Ideal S2000x1 .f32) (h : S2000x1.Broadcasts S2000x576) (p : Fin 2000) (q : Fin 576) :
    broadcastTo S2000x576 x h (ix2 p q) = x (ix2 p 0) := by
  refine broadcastTo_apply x h (ix2 p q) (ix2 p 0) fun a => ?_
  match a with
  | ⟨0, _⟩ => rw [if_neg (by show ¬ (2000 : Nat) = 1; decide)]; rfl
  | ⟨1, _⟩ => rw [if_pos (by show (1 : Nat) = 1; rfl)]; rfl

/-- The body's value at `(p, q)` of its blocks: the aggregate times the row's norm, negative parts cut off. -/
theorem payload_apply (x0 : Vec Ideal S2000x576 .f32) (x2 : Vec Ideal S2000x1 .f32) (p : Fin 2000) (q : Fin 576) :
    k1_pay1 (F := Ideal) x0 x2 (ix2 p q) = max (x0 (ix2 p q) * x2 (ix2 p 0)) 0 := by
  unfold k1_pay1
  show max (shapeCast S2000x576 x0 shapeCasts_S2000x576_S2000x576 (ix2 p q) * broadcastTo S2000x576 x2 broadcasts_S2000x1_S2000x576 (ix2 p q)) (Ideal.ofBits .f32 0x00000000#32) = _
  rw [shapeCast_self, column_spread_apply, Ideal.ofBits_zero_f32]

/-- The blocks' index maps over the grid: both inputs' blocks move with the output's along the rows, and
    every block sits at column block `0`. -/
theorem block_indices : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) ≤ 49
    ∧ win1_2.index t (1 : Fin 2) = 0 :=
  (by decide +kernel : ∀ t : Fin grid1.N, _)

/-- Every row block is some point's. -/
theorem block_onto : ∀ q0 : Fin 50, ∃ t : Fin cfg1.N, win1_2.index t = ![q0.val, 0] :=
  (by decide +kernel : ∀ q0 : Fin 50, ∃ t : Fin grid1.N, win1_2.index t = ![q0.val, 0])

/-- The aggregates' block at point `t`. -/
abbrev aggBlk (c : Dev nD) (t : Fin cfg1.N) : Vec Ideal S2000x576 .f32 := iblk1 V c 0 t
/-- The norms' block at point `t`. -/
abbrev normBlk (c : Dev nD) (t : Fin cfg1.N) : Vec Ideal S2000x1 .f32 := iblk1 V c 1 t
/-- The aggregates as the launch finds them. -/
abbrev aggArr (c : Dev nD) : Agg := V c main_v19
/-- The norms as the launch finds them. -/
abbrev normArr (c : Dev nD) : Norm := V c main_arg1

/-- The aggregates' block at point `t` is rows `2000 b … 2000 b + 1999` of the array, `b` the output's row block there. -/
theorem aggBlk_apply (c : Dev nD) (t : Fin cfg1.N) (p : Fin 2000) (q : Fin 576) (i : S100000x576.Idx)
    (hi0 : (i 0).val = win1_2.index t (0 : Fin 2) * 2000 + p.val) (hi1 : (i 1).val = q.val) :
    aggBlk V c t (ix2 p q) = aggArr V c i := by
  obtain ⟨e0, e1, e2, e3, e4, e5⟩ := block_indices t
  show V c main_v19 (((cfg1.win 0).blk t).view.emb (ix2 p q)) = V c main_v19 i
  refine congrArg (V c main_v19) (funext fun a => Fin.ext ?_)
  match a with
  | ⟨0, _⟩ => show win1_0.index t (0 : Fin 2) * 2000 + 1 * p.val = (i 0).val; omega
  | ⟨1, _⟩ => show win1_0.index t (1 : Fin 2) * 576 + 1 * q.val = (i 1).val; omega

/-- The norms' block at point `t` is the same rows of the norms' column. -/
theorem normBlk_apply (c : Dev nD) (t : Fin cfg1.N) (p : Fin 2000) (i : S100000x1.Idx)
    (hi0 : (i 0).val = win1_2.index t (0 : Fin 2) * 2000 + p.val) :
    normBlk V c t (ix2 p 0) = normArr V c i := by
  obtain ⟨e0, e1, e2, e3, e4, e5⟩ := block_indices t
  have hi1 : (i 1).val < 1 := (i 1).isLt
  show V c main_arg1 (((cfg1.win 1).blk t).view.emb (ix2 p 0)) = V c main_arg1 i
  refine congrArg (V c main_arg1) (funext fun a => Fin.ext ?_)
  match a with
  | ⟨0, _⟩ => show win1_1.index t (0 : Fin 2) * 2000 + 1 * p.val = (i 0).val; omega
  | ⟨1, _⟩ => show win1_1.index t (1 : Fin 2) * 1 + 1 * ((0 : Fin 1) : Nat) = (i 1).val; rw [e3]; simp; omega

/-- The body's value at `(p, q)` of point `t`'s blocks is the scaled, cut aggregate at the row the block's row `p` is. -/
theorem block_value (c : Dev nD) (t : Fin cfg1.N) (p : Fin 2000) (q : Fin 576) (i : S100000x576.Idx)
    (hi0 : (i 0).val = win1_2.index t (0 : Fin 2) * 2000 + p.val) (hi1 : (i 1).val = q.val) :
    k1_pay1 (F := Ideal) (aggBlk V c t) (normBlk V c t) (ix2 p q) = scaleCut (aggArr V c) (normArr V c) i := by
  refine (payload_apply (aggBlk V c t) (normBlk V c t) p q).trans ?_
  show _ = max (aggArr V c i * normArr V c (ix2 (i 0) 0)) 0
  rw [aggBlk_apply V c t p q i hi0 hi1, normBlk_apply V c t p (ix2 (i 0) 0) hi0]

/-- What point `t` writes back is block `t` of the scaled, cut aggregates of the arrays the launch found. -/
theorem flushed_eq (c : Dev nD) (t : Fin cfg1.N) :
    (cfg1.win 2).cut (grid1.coords t) ((dat1 (F := Ideal) V c).after 2 t)
      = ((cfg1.win 2).blk t).view.read (Elt Ideal) (scaleCut (V c main_v19) (V c main_arg1)) := by
  rw [after1_2]
  unfold out1_2
  rw [View.canon_unit_zero zero_offsets]
  simp only [View.ld_unit_zero (S := S2000x576) zero_offsets, View.ld_unit_zero (S := S2000x1) zero_offsets]
  obtain ⟨e0, e1, e2, e3, e4, e5⟩ := block_indices t
  funext j
  obtain ⟨p, q, rfl⟩ : ∃ (p : Fin 2000) (q : Fin 576), j = ix2 p q := ⟨j 0, j 1, eq_ix2 j⟩
  show k1_pay1 (F := Ideal) (aggBlk V c t) (normBlk V c t) (ix2 p q)
    = scaleCut (aggArr V c) (normArr V c) (((cfg1.win 2).blk t).view.emb (ix2 p q))
  refine block_value V c t p q (((cfg1.win 2).blk t).view.emb (ix2 p q)) ?_ ?_
  · show win1_2.index t (0 : Fin 2) * 2000 + 1 * p.val = win1_2.index t (0 : Fin 2) * 2000 + p.val
    omega
  · show win1_2.index t (1 : Fin 2) * 576 + 1 * q.val = q.val
    omega

/-- An index of the array is in point `t`'s block iff each coordinate is in the block's range on its axis. -/
theorem mem_blk (t : Fin cfg1.N) (i : S100000x576.Idx) :
    i ∈ ((cfg1.win 2).blk t).view.set ↔ ∀ a : Fin 2, win1_2.index t a * S2000x576.size a ≤ (i a).val ∧ (i a).val < win1_2.index t a * S2000x576.size a + S2000x576.size a := by
  show i ∈ ((View.whole main_v20).slice (win1_2.rect t)).set ↔ _
  rw [View.set_slice_whole, Rect.mem_set_unit]
  exact Iff.rfl

/-- The blocks tile the array: row `r` lies in the block of the point whose row block is `r / 2000`. -/
theorem cover (i : S100000x576.Idx) :
    ∃ t : Fin cfg1.N, (cfg1.win 2).flush t = true ∧ i ∈ ((cfg1.win 2).blk t).view.set := by
  have hi0 : (i 0).val < 100000 := (i 0).isLt
  have hi1 : (i 1).val < 576 := (i 1).isLt
  obtain ⟨t, ht⟩ := block_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 576 ≤ (i 1).val ∧ (i 1).val < win1_2.index t (1 : Fin 2) * 576 + 576; omega

/-- After the second launch its output array holds, at `(n, j)`, `max (h[n, j] · ν[n]) 0` of the arrays the launch found. -/
theorem final (c : Dev nD) :
    (dat1 (F := Ideal) V c).arrAt 2 cfg1.N
      = scaleCut (V c main_v19) (V c main_arg1) :=
  (dat1 (F := Ideal) V c).arrAt_eq_of_cover 2 (scaleCut (V c main_v19) (V c main_arg1)) (fun t _ => flushed_eq V c t) cover

end Cert.KernelIdeal.FinalizeRegion

end
-- ==== Proof.KernelValue.lean ====
/-
  The kernel's result array. The launch ends with the result buffer at what the second launch's write-backs leave, which is
  `scaleCut` of the arrays that launch found; it found the norms as launched and, in the aggregate's buffer, `edgeChain` of
  the first launch's output and the edge lists as launched; and the first launch's output is `projArr` of the features, norms
  and weights as launched. Read at an index through `edgeChain_apply`, that is `outArr`.
-/
import proofs.«408371_j84593675862585_1_alg».proof.Proof.KernelRun
import proofs.«408371_j84593675862585_1_alg».proof.Proof.KernelHost
import proofs.«408371_j84593675862585_1_alg».proof.Proof.KernelChainAt
import proofs.«408371_j84593675862585_1_alg».proof.Proof.ProjectRegion
import proofs.«408371_j84593675862585_1_alg».proof.Proof.FinalizeRegion
import proofs.«408371_j84593675862585_1_alg».proof.Proof.MessageSpec

set_option maxRecDepth 16384

noncomputable section

namespace Cert.KernelIdeal.KernelValue

open Cert.KernelIdeal Cert.KernelIdeal.Gen Cert.KernelIdeal.EdgeChain Cert.DivisionMessages
open Idealize.ShloMosaic Idealize.ShloMosaic.TcCoe Idealize.SL.Sem Idealize.ShloMosaic.ValueIdx

variable (m : (ℓ : Loc nD τ sig) → Buf (Elt Ideal) ℓ) (ρ : Dev nD → PrngReg)

/-- What the second launch finds in the aggregate's buffer. -/
theorem entry_agg (c : Dev nD) :
    V4 m ρ c main_v19
      = edgeChain ((dat0 (F := Ideal) (V0 m ρ) c).arrAt 3 cfg0.N) (m ((c.tc : Thread nD τ).loc main_arg3))
          (m ((c.tc : Thread nD τ).loc main_arg4)) (m ((c.tc : Thread nD τ).loc main_arg5)) := by
  have h := after_stretch (W1 m ρ c)
  rw [W1_arr m ρ c 3, W1_of_ne m ρ c main_arg3 (by decide), W1_of_ne m ρ c main_arg4 (by decide),
    W1_of_ne m ρ c main_arg5 (by decide)] at h
  exact h

/-- What the second launch finds in the norms' buffer: the norms as launched. -/
theorem entry_norm (c : Dev nD) : V4 m ρ c main_arg1 = m ((c.tc : Thread nD τ).loc main_arg1) := by
  have h := after_stretch_norm (W1 m ρ c)
  rw [(W1_arr m ρ c 1).trans (((dat0 (V0 m ρ) c).arrAt_in 1 rfl _).trans (A_eq0 (V0 m ρ) c 1))] at h
  exact h

/-- THE KERNEL'S RESULT is `outArr`, when the edge lists are maps into the nodes and the divisions. -/
theorem result_eq (c : Dev nD) (v : Fin 1600000 → Fin 9) (s t : Fin 1600000 → Fin 100000)
    (h : EdgesAre (m ((c.tc : Thread nD τ).loc main_arg3)) (m ((c.tc : Thread nD τ).loc main_arg4))
      (m ((c.tc : Thread nD τ).loc main_arg5)) v s t) :
    W5 m ρ c (Proc.devRef .tc main_v20)
      = outArr (m ((c.tc : Thread nD τ).loc main_arg0)) (m ((c.tc : Thread nD τ).loc main_arg1))
          (m ((c.tc : Thread nD τ).loc main_arg2)) v s t := by
  refine (W5_arr m ρ c 2).trans ?_
  rw [FinalizeRegion.final (V4 m ρ) c, entry_agg m ρ c, entry_norm m ρ c, ProjectRegion.final (V0 m ρ) c, outArr_eq]
  refine congrArg (fun X => scaleCut X (m ((c.tc : Thread nD τ).loc main_arg1))) ?_
  funext i
  obtain ⟨n, j, rfl⟩ : ∃ (n : Fin 100000) (j : Fin 576), i = ix2 n j := ⟨i 0, i 1, eq_ix2 i⟩
  rw [edgeChain_apply _ _ _ _ v s t h n j]
  rfl

end Cert.KernelIdeal.KernelValue

end
-- ==== Proof.LibPairRows.lean ====
/-
  Rows of a rank-3 table `[D, N, C]` addressed by PAIRS of indices: what `table[a, b]` prints for two index vectors of
  length `n` laid side by side as an `[n, 2]` array of start (or scatter) indices — a gather that takes row `(a p, b p)`
  for each `p`, and a float scatter-add that adds update row `p` into row `(a p, b p)`.

  Gather: offset axis 1, collapsed axes 0 and 1, start index map `[0, 1]`, the index vector along axis 1, slices of one row.
  Read at `(p, q)` it is the table at `(a, b, q)` with `a`, `b` the two components of start index `p`, each read signed
  and clamped into its axis.

  Scatter-add: update window axis 1, inserted window axes 0 and 1, the two scatter-index components naming operand axes 0 and 1.
  Over the extended reals the result at `(d, k, q)` is the operand there plus the sum of the updates `(p, q)` whose index
  pair, read signed and NOT clamped, is `(d, k)`; an update whose pair is outside the table lands nowhere.
-/
import Idealize.ShloMosaic.PureOps
import Idealize.ShloMosaic.PureOps.Ideal
import Idealize.ShloMosaic.Lib.ValueIdx

namespace Idealize.ShloMosaic.PairRows

open Idealize.ShloMosaic Idealize.ShloMosaic.ValueIdx

variable {α : Type}

/-- The dimension numbers of a row-take from a `[D, N, C]` table by an `[n, 2]` array of index pairs. -/
abbrev gatherDims (D N C n : Nat)
    (wf : GatherDims.WF ⟨3, ![D, N, C]⟩ ⟨2, ![n, 2]⟩ ⟨2, ![n, C]⟩ [1] [0, 1] [] [0, 1] [] 1 ![1, 1, C]) :
    GatherDims ⟨3, ![D, N, C]⟩ ⟨2, ![n, 2]⟩ ⟨2, ![n, C]⟩ where
  offsetDims := [1]
  collapsedSliceDims := [0, 1]
  operandBatchingDims := []
  startIndicesBatchingDims := []
  startIndexMap := [0, 1]
  indexVectorDim := 1
  sliceSizes := ![1, 1, C]
  wf := wf

/-- THE PAIR ROW-TAKE READ AT `(p, q)`: the table at `(idx[p, 0], idx[p, 1], q)`, each component signed and clamped. -/
theorem gather_pairs_apply {D N C n w : Nat} (hD : 0 < D) (hN : 0 < N)
    (wf : GatherDims.WF ⟨3, ![D, N, C]⟩ ⟨2, ![n, 2]⟩ ⟨2, ![n, C]⟩ [1] [0, 1] [] [0, 1] [] 1 ![1, 1, C])
    (x : (⟨3, ![D, N, C]⟩ : Shape).Idx → α) (idx : IVec ⟨2, ![n, 2]⟩ w) (p : Fin n) (q : Fin C) :
    Host.gather (gatherDims D N C n wf) x idx (ix2 p q)
      = x (ix3 ⟨min (idx (ix2 p (0 : Fin 2))).toInt.toNat (D - 1), by omega⟩
               ⟨min (idx (ix2 p (1 : Fin 2))).toInt.toNat (N - 1), by omega⟩ q) := by
  unfold Host.gather
  congr 1
  funext a
  refine Fin.ext ?_
  show (gatherDims D N C n wf).start (ix2 p q) idx a + (gatherDims D N C n wf).batchCoord (ix2 p q) a
    + (gatherDims D N C n wf).offCoord (ix2 p q) a = _
  rw [GatherDims.batchCoord_eq_zero _ _ _ List.not_mem_nil, Nat.add_zero]
  match a with
  | ⟨0, _⟩ =>
    -- the first table axis: collapsed, so no offset; its start is component 0 of the start index, clamped
    rw [GatherDims.offCoord_eq_zero _ _ _
      (fun h => ((GatherDims.mem_sKept _ _).mp h).1 (by decide : (⟨0, by decide⟩ : Fin 3) ∈ ([0, 1] : List (Fin 3)))), Nat.add_zero]
    unfold GatherDims.start
    rw [dif_pos (show (⟨0, by decide⟩ : Fin 3) ∈ (gatherDims D N C n wf).startIndexMap from (by decide : (⟨0, by decide⟩ : Fin 3) ∈ ([0, 1] : List (Fin 3))))]
    have hsi : (gatherDims D N C n wf).siIdx (ix2 p q)
        ⟨List.idxOf (⟨0, by decide⟩ : Fin 3) (gatherDims D N C n wf).startIndexMap,
          List.idxOf_lt_length_iff.2 (by decide : (⟨0, by decide⟩ : Fin 3) ∈ ([0, 1] : List (Fin 3)))⟩ = ix2 p (0 : Fin 2) := by
      funext b; refine Fin.ext ?_
      match b with
      | ⟨0, _⟩ => rfl
      | ⟨1, _⟩ => rfl
    rw [hsi]
    rfl
  | ⟨1, _⟩ =>
    -- the second table axis: collapsed, so no offset; its start is component 1 of the start index, clamped
    rw [GatherDims.offCoord_eq_zero _ _ _
      (fun h => ((GatherDims.mem_sKept _ _).mp h).1 (by decide : (⟨1, by decide⟩ : Fin 3) ∈ ([0, 1] : List (Fin 3)))), Nat.add_zero]
    unfold GatherDims.start
    rw [dif_pos (show (⟨1, by decide⟩ : Fin 3) ∈ (gatherDims D N C n wf).startIndexMap from (by decide : (⟨1, by decide⟩ : Fin 3) ∈ ([0, 1] : List (Fin 3))))]
    have hsi : (gatherDims D N C n wf).siIdx (ix2 p q)
        ⟨List.idxOf (⟨1, by decide⟩ : Fin 3) (gatherDims D N C n wf).startIndexMap,
          List.idxOf_lt_length_iff.2 (by decide : (⟨1, by decide⟩ : Fin 3) ∈ ([0, 1] : List (Fin 3)))⟩ = ix2 p (1 : Fin 2) := by
      funext b; refine Fin.ext ?_
      match b with
      | ⟨0, _⟩ => rfl
      | ⟨1, _⟩ => rfl
    rw [hsi]
    rfl
  | ⟨2, _⟩ =>
    -- the column axis: no start index names it; the offset is the result's own column
    have hs : (gatherDims D N C n wf).start (ix2 p q) idx (⟨2, by decide⟩ : Fin 3) = 0 := by
      unfold GatherDims.start
      rw [dif_neg (by decide : (⟨2, by decide⟩ : Fin 3) ∉ ([0, 1] : List (Fin 3)))]
    rw [hs, Nat.zero_add]
    rfl

/-- The dimension numbers of a row scatter into a `[D, N, C]` table by an `[n, 2]` array of index pairs. -/
abbrev scatterDims (D N C n : Nat)
    (wf : ScatterDims.WF ⟨3, ![D, N, C]⟩ ⟨2, ![n, 2]⟩ ⟨2, ![n, C]⟩ [1] [0, 1] [0, 1] 1) :
    ScatterDims ⟨3, ![D, N, C]⟩ ⟨2, ![n, 2]⟩ ⟨2, ![n, C]⟩ where
  updateWindowDims := [1]
  insertedWindowDims := [0, 1]
  scatterDimsToOperandDims := [0, 1]
  indexVectorDim := 1
  wf := wf

/-- On the first table axis the start of update `(p, q)` is component 0 of index pair `p`, read signed: it sits at
    `(p, 0)` of the array of scatter indices. -/
private theorem pairs_start0 {D N C n w : Nat}
    (wf : ScatterDims.WF ⟨3, ![D, N, C]⟩ ⟨2, ![n, 2]⟩ ⟨2, ![n, C]⟩ [1] [0, 1] [0, 1] 1)
    (idx : IVec ⟨2, ![n, 2]⟩ w) (p : Fin n) (q : Fin C) :
    (scatterDims D N C n wf).start (ix2 p q) idx (⟨0, by decide⟩ : Fin 3) = (idx (ix2 p (0 : Fin 2))).toInt := by
  unfold ScatterDims.start
  rw [dif_pos (show (⟨0, by decide⟩ : Fin 3) ∈ (scatterDims D N C n wf).scatterDimsToOperandDims from (by decide : (⟨0, by decide⟩ : Fin 3) ∈ ([0, 1] : List (Fin 3))))]
  have hsi : (scatterDims D N C n wf).siIdx (ix2 p q)
      ⟨List.idxOf (⟨0, by decide⟩ : Fin 3) (scatterDims D N C n wf).scatterDimsToOperandDims,
        List.idxOf_lt_length_iff.2 (by decide : (⟨0, by decide⟩ : Fin 3) ∈ ([0, 1] : List (Fin 3)))⟩ = ix2 p (0 : Fin 2) := by
    funext b; refine Fin.ext ?_
    match b with
    | ⟨0, _⟩ => rfl
    | ⟨1, _⟩ => rfl
  rw [hsi]

/-- On the second table axis the start of update `(p, q)` is component 1 of index pair `p`, read signed: the second
    table axis is second in the map from index components to table axes, so its component sits at `(p, 1)`. -/
private theorem pairs_start1 {D N C n w : Nat}
    (wf : ScatterDims.WF ⟨3, ![D, N, C]⟩ ⟨2, ![n, 2]⟩ ⟨2, ![n, C]⟩ [1] [0, 1] [0, 1] 1)
    (idx : IVec ⟨2, ![n, 2]⟩ w) (p : Fin n) (q : Fin C) :
    (scatterDims D N C n wf).start (ix2 p q) idx (⟨1, by decide⟩ : Fin 3) = (idx (ix2 p (1 : Fin 2))).toInt := by
  unfold ScatterDims.start
  rw [dif_pos (show (⟨1, by decide⟩ : Fin 3) ∈ (scatterDims D N C n wf).scatterDimsToOperandDims from (by decide : (⟨1, by decide⟩ : Fin 3) ∈ ([0, 1] : List (Fin 3))))]
  have hsi : (scatterDims D N C n wf).siIdx (ix2 p q)
      ⟨List.idxOf (⟨1, by decide⟩ : Fin 3) (scatterDims D N C n wf).scatterDimsToOperandDims,
        List.idxOf_lt_length_iff.2 (by decide : (⟨1, by decide⟩ : Fin 3) ∈ ([0, 1] : List (Fin 3)))⟩ = ix2 p (1 : Fin 2) := by
    funext b; refine Fin.ext ?_
    match b with
    | ⟨0, _⟩ => rfl
    | ⟨1, _⟩ => rfl
  rw [hsi]

/-- The column axis is named by no index component: its start is `0`. -/
private theorem pairs_start2 {D N C n w : Nat}
    (wf : ScatterDims.WF ⟨3, ![D, N, C]⟩ ⟨2, ![n, 2]⟩ ⟨2, ![n, C]⟩ [1] [0, 1] [0, 1] 1)
    (idx : IVec ⟨2, ![n, 2]⟩ w) (j : (⟨2, ![n, C]⟩ : Shape).Idx) :
    (scatterDims D N C n wf).start j idx (⟨2, by decide⟩ : Fin 3) = 0 := by
  unfold ScatterDims.start
  rw [dif_neg (by decide : (⟨2, by decide⟩ : Fin 3) ∉ ([0, 1] : List (Fin 3)))]

/-- The first table axis is an inserted window axis: it has no window coordinate. -/
private theorem pairs_window0 {D N C n : Nat}
    (wf : ScatterDims.WF ⟨3, ![D, N, C]⟩ ⟨2, ![n, 2]⟩ ⟨2, ![n, C]⟩ [1] [0, 1] [0, 1] 1)
    (j : (⟨2, ![n, C]⟩ : Shape).Idx) :
    (scatterDims D N C n wf).window j (⟨0, by decide⟩ : Fin 3) = 0 := by
  unfold ScatterDims.window
  rw [dif_neg (by simp [Shape.kept])]

/-- The second table axis is an inserted window axis: it has no window coordinate. -/
private theorem pairs_window1 {D N C n : Nat}
    (wf : ScatterDims.WF ⟨3, ![D, N, C]⟩ ⟨2, ![n, 2]⟩ ⟨2, ![n, C]⟩ [1] [0, 1] [0, 1] 1)
    (j : (⟨2, ![n, C]⟩ : Shape).Idx) :
    (scatterDims D N C n wf).window j (⟨1, by decide⟩ : Fin 3) = 0 := by
  unfold ScatterDims.window
  rw [dif_neg (by simp [Shape.kept])]

/-- The column axis is the one window axis: its window coordinate is the update's own column. -/
private theorem pairs_window2 {D N C n : Nat}
    (wf : ScatterDims.WF ⟨3, ![D, N, C]⟩ ⟨2, ![n, 2]⟩ ⟨2, ![n, C]⟩ [1] [0, 1] [0, 1] 1)
    (p : Fin n) (q : Fin C) :
    (scatterDims D N C n wf).window (ix2 p q) (⟨2, by decide⟩ : Fin 3) = q.val := by
  unfold ScatterDims.window
  rw [dif_pos (by simp [Shape.kept])]
  rfl

/-- Update `(p, q')` lands on `(d, k, q)` exactly when index pair `p` is `(d, k)` and `q' = q`: it lands at
    (component 0 + 0, component 1 + 0, 0 + q') when that is inside the table, and nowhere otherwise; and `(d, k, q)` is
    inside the table. -/
private theorem pairs_resultIdx_iff {D N C n w : Nat}
    (wf : ScatterDims.WF ⟨3, ![D, N, C]⟩ ⟨2, ![n, 2]⟩ ⟨2, ![n, C]⟩ [1] [0, 1] [0, 1] 1)
    (idx : IVec ⟨2, ![n, 2]⟩ w) (p : Fin n) (q' : Fin C) (d : Fin D) (k : Fin N) (q : Fin C) :
    (scatterDims D N C n wf).resultIdx? (ix2 p q') idx = some (ix3 d k q)
      ↔ (idx (ix2 p (0 : Fin 2))).toInt = (d.val : Int) ∧ (idx (ix2 p (1 : Fin 2))).toInt = (k.val : Int) ∧ q' = q := by
  have h0 := pairs_start0 wf idx p q'
  have h1 := pairs_start1 wf idx p q'
  have h2 := pairs_start2 wf idx (ix2 p q')
  have w0 := pairs_window0 wf (ix2 p q')
  have w1 := pairs_window1 wf (ix2 p q')
  have w2 := pairs_window2 wf p q'
  unfold ScatterDims.resultIdx?
  split
  · rename_i h
    rw [Option.some.injEq]
    have hh0 := (h (⟨0, by decide⟩ : Fin 3)).1
    have hh1 := (h (⟨1, by decide⟩ : Fin 3)).1
    rw [h0, w0] at hh0
    rw [h1, w1] at hh1
    constructor
    · intro hf
      have e0 : ((scatterDims D N C n wf).start (ix2 p q') idx (⟨0, by decide⟩ : Fin 3)
          + ((scatterDims D N C n wf).window (ix2 p q') (⟨0, by decide⟩ : Fin 3) : Int)).toNat = d.val :=
        congrArg Fin.val (congrFun hf (⟨0, by decide⟩ : Fin 3))
      have e1 : ((scatterDims D N C n wf).start (ix2 p q') idx (⟨1, by decide⟩ : Fin 3)
          + ((scatterDims D N C n wf).window (ix2 p q') (⟨1, by decide⟩ : Fin 3) : Int)).toNat = k.val :=
        congrArg Fin.val (congrFun hf (⟨1, by decide⟩ : Fin 3))
      have e2 : ((scatterDims D N C n wf).start (ix2 p q') idx (⟨2, by decide⟩ : Fin 3)
          + ((scatterDims D N C n wf).window (ix2 p q') (⟨2, by decide⟩ : Fin 3) : Int)).toNat = q.val :=
        congrArg Fin.val (congrFun hf (⟨2, by decide⟩ : Fin 3))
      rw [h0, w0] at e0
      rw [h1, w1] at e1
      rw [h2, w2] at e2
      exact ⟨by omega, by omega, Fin.ext (by omega)⟩
    · rintro ⟨ht0, ht1, rfl⟩
      funext a; refine Fin.ext ?_
      match a with
      | ⟨0, _⟩ =>
        show ((scatterDims D N C n wf).start (ix2 p q') idx (⟨0, by decide⟩ : Fin 3)
          + ((scatterDims D N C n wf).window (ix2 p q') (⟨0, by decide⟩ : Fin 3) : Int)).toNat = d.val
        rw [h0, w0]; omega
      | ⟨1, _⟩ =>
        show ((scatterDims D N C n wf).start (ix2 p q') idx (⟨1, by decide⟩ : Fin 3)
          + ((scatterDims D N C n wf).window (ix2 p q') (⟨1, by decide⟩ : Fin 3) : Int)).toNat = k.val
        rw [h1, w1]; omega
      | ⟨2, _⟩ =>
        show ((scatterDims D N C n wf).start (ix2 p q') idx (⟨2, by decide⟩ : Fin 3)
          + ((scatterDims D N C n wf).window (ix2 p q') (⟨2, by decide⟩ : Fin 3) : Int)).toNat = q'.val
        rw [h2, w2]; omega
  · rename_i h
    constructor
    · intro hf; exact absurd hf (by simp)
    · rintro ⟨ht0, ht1, rfl⟩
      exfalso; apply h
      intro a
      match a with
      | ⟨0, _⟩ =>
        show 0 ≤ (scatterDims D N C n wf).start (ix2 p q') idx (⟨0, by decide⟩ : Fin 3)
          + ((scatterDims D N C n wf).window (ix2 p q') (⟨0, by decide⟩ : Fin 3) : Int)
          ∧ (scatterDims D N C n wf).start (ix2 p q') idx (⟨0, by decide⟩ : Fin 3)
          + ((scatterDims D N C n wf).window (ix2 p q') (⟨0, by decide⟩ : Fin 3) : Int) < (D : Int)
        rw [h0, w0, ht0]; have := d.isLt; omega
      | ⟨1, _⟩ =>
        show 0 ≤ (scatterDims D N C n wf).start (ix2 p q') idx (⟨1, by decide⟩ : Fin 3)
          + ((scatterDims D N C n wf).window (ix2 p q') (⟨1, by decide⟩ : Fin 3) : Int)
          ∧ (scatterDims D N C n wf).start (ix2 p q') idx (⟨1, by decide⟩ : Fin 3)
          + ((scatterDims D N C n wf).window (ix2 p q') (⟨1, by decide⟩ : Fin 3) : Int) < (N : Int)
        rw [h1, w1, ht1]; have := k.isLt; omega
      | ⟨2, _⟩ =>
        show 0 ≤ (scatterDims D N C n wf).start (ix2 p q') idx (⟨2, by decide⟩ : Fin 3)
          + ((scatterDims D N C n wf).window (ix2 p q') (⟨2, by decide⟩ : Fin 3) : Int)
          ∧ (scatterDims D N C n wf).start (ix2 p q') idx (⟨2, by decide⟩ : Fin 3)
          + ((scatterDims D N C n wf).window (ix2 p q') (⟨2, by decide⟩ : Fin 3) : Int) < (C : Int)
        rw [h2, w2]; have := q'.isLt; omega

/-- THE PAIR ROW SCATTER-ADD READ AT `(d, k, q)`: the operand there plus the updates `(p, q)` of the rows `p` whose index pair is `(d, k)`. -/
theorem scatterAdd_pairs_apply {D N C n w : Nat}
    (wf : ScatterDims.WF ⟨3, ![D, N, C]⟩ ⟨2, ![n, 2]⟩ ⟨2, ![n, C]⟩ [1] [0, 1] [0, 1] 1)
    (x0 : (⟨3, ![D, N, C]⟩ : Shape).Idx → EReal) (idx : IVec ⟨2, ![n, 2]⟩ w) (upd : (⟨2, ![n, C]⟩ : Shape).Idx → EReal)
    (d : Fin D) (k : Fin N) (q : Fin C) :
    Ideal.hostScatterAdd (scatterDims D N C n wf) x0 idx upd (ix3 d k q)
      = x0 (ix3 d k q) + ∑ p : Fin n,
          if (idx (ix2 p (0 : Fin 2))).toInt = (d.val : Int) ∧ (idx (ix2 p (1 : Fin 2))).toInt = (k.val : Int)
          then upd (ix2 p q) else 0 := by
  unfold Ideal.hostScatterAdd
  congr 1
  -- the sum over the updates landing on `(d, k, q)`, as a double sum over `(p, q')` of the updates with pair `(d, k)` and `q' = q`
  rw [Finset.sum_filter, sum_idx2]
  refine Finset.sum_congr rfl fun p _ => ?_
  simp only [pairs_resultIdx_iff]
  by_cases ht : (idx (ix2 p (0 : Fin 2))).toInt = (d.val : Int) ∧ (idx (ix2 p (1 : Fin 2))).toInt = (k.val : Int)
  · -- row `p` has pair `(d, k)`: of its columns only `q' = q` remains
    rw [if_pos ht]
    have hq : ∀ q' : Fin C, ((idx (ix2 p (0 : Fin 2))).toInt = (d.val : Int)
        ∧ (idx (ix2 p (1 : Fin 2))).toInt = (k.val : Int) ∧ q' = q) ↔ q' = q :=
      fun q' => ⟨fun h => h.2.2, fun h => ⟨ht.1, ht.2, h⟩⟩
    simp only [hq]
    rw [Finset.sum_ite_eq' Finset.univ q (fun q' => upd (ix2 p q'))]
    simp
  · -- row `p` has another pair: every term is `0`
    rw [if_neg ht]
    exact Finset.sum_eq_zero fun q' _ => if_neg fun h => ht ⟨h.1, h.2.1⟩

end Idealize.ShloMosaic.PairRows
-- ==== Proof.ReferenceValue.lean ====
/-
  The reference, read at an index. Its projected array at `(d, n, o)` is `proj` (the same products, the weights written
  first). When the edge lists ARE maps `v` (division), `s` (source), `t` (destination), every index is already
  nonnegative, so "add the extent if negative" changes nothing, the gathered row of edge `e` is the projected row
  `(v e, s e)`, entry `(d, n)` of the summed table collects the edges with `(v e, t e) = (d, n)`, and the result is
  `outArr`.
-/
import proofs.«408371_j84593675862585_1_alg».proof.Proof.Gen.ReferenceIdeal.Read
import proofs.«408371_j84593675862585_1_alg».proof.Proof.MessageSpec
import proofs.«408371_j84593675862585_1_alg».proof.Proof.LayoutAt
import proofs.«408371_j84593675862585_1_alg».proof.Proof.RowWords
import proofs.«408371_j84593675862585_1_alg».proof.Proof.LibPairRows
import Idealize.ShloMosaic.PureOps.Ideal.Laws

set_option maxRecDepth 16384

noncomputable section

namespace Cert.ReferenceIdeal.RefValue

open Cert.ReferenceIdeal Cert.ReferenceIdeal.Gen Cert.ReferenceIdeal.Read Cert.DivisionMessages
open Idealize.ShloMosaic Idealize.ShloMosaic.ValueIdx

variable (x0 : (⟨S100000x128, .f32⟩ : BufTy).Contents (Elt Ideal)) (x1 : (⟨S100000x1, .f32⟩ : BufTy).Contents (Elt Ideal)) (x2 : (⟨S9x64x128, .f32⟩ : BufTy).Contents (Elt Ideal))
  (x3 x4 x5 : (⟨S1600000, .i32⟩ : BufTy).Contents (Elt Ideal))

/-- THE PROJECTED ARRAY at `(d, n, o)`. -/
theorem projected_apply (d : Fin 9) (n : Fin 100000) (o : Fin 64) :
    val_main_v4 (F := Ideal) x0 x1 x2 (ix3 d n o) = proj x0 x1 x2 d n o := by
  rw [val_main_v4_apply, val_main_v1_apply, val_main_v0_apply, val_main_v3_apply, val_main_v2_apply]
  unfold proj
  rw [Ideal.mulf_def]
  congr 1
  · refine Finset.sum_congr rfl fun f _ => ?_
    rw [mul_comm]
    congr 1
    · exact congrArg x0 (funext fun a => Fin.ext (by match a with | ⟨0, _⟩ => rfl | ⟨1, _⟩ => rfl))
    · exact congrArg x2 (funext fun a => Fin.ext (by match a with | ⟨0, _⟩ => rfl | ⟨1, _⟩ => rfl | ⟨2, _⟩ => rfl))
  · exact congrArg x1 (funext fun a => Fin.ext (by match a with | ⟨0, _⟩ => rfl | ⟨1, _⟩ => rfl))

/-- A division list that is a map into the divisions is unchanged by "add 9 if negative" (the gather's copy). -/
theorem div_wrap (v : Fin 1600000 → Fin 9) (h5 : ∀ e : Fin 1600000, (x5 (ix1 e)).toInt = ((v e).val : Int)) (e : Fin 1600000) :
    val_main_v9 (F := Ideal) x5 (ix1 e) = x5 (ix1 e) := by
  rw [val_main_v9_apply, val_main_v6_apply, val_main_v8_apply, val_main_v5_apply, val_main_c_apply]
  exact wrap_nonneg _ _ (by rw [h5 e]; exact Int.natCast_nonneg _)

/-- … and the scatter's copy. -/
theorem div_wrap' (v : Fin 1600000 → Fin 9) (h5 : ∀ e : Fin 1600000, (x5 (ix1 e)).toInt = ((v e).val : Int)) (e : Fin 1600000) :
    val_main_v24 (F := Ideal) x5 (ix1 e) = x5 (ix1 e) := by
  rw [val_main_v24_apply, val_main_v21_apply, val_main_v23_apply, val_main_v20_apply, val_main_c_3_apply]
  exact wrap_nonneg _ _ (by rw [h5 e]; exact Int.natCast_nonneg _)

/-- A source list that is a map into the nodes is unchanged by "add 100000 if negative". -/
theorem src_wrap (s : Fin 1600000 → Fin 100000) (h3 : ∀ e : Fin 1600000, (x3 (ix1 e)).toInt = ((s e).val : Int)) (e : Fin 1600000) :
    val_main_v14 (F := Ideal) x3 (ix1 e) = x3 (ix1 e) := by
  rw [val_main_v14_apply, val_main_v11_apply, val_main_v13_apply, val_main_v10_apply, val_main_c_1_apply]
  exact wrap_nonneg _ _ (by rw [h3 e]; exact Int.natCast_nonneg _)

/-- The same for the destination list. -/
theorem dst_wrap (t : Fin 1600000 → Fin 100000) (h4 : ∀ e : Fin 1600000, (x4 (ix1 e)).toInt = ((t e).val : Int)) (e : Fin 1600000) :
    val_main_v29 (F := Ideal) x4 (ix1 e) = x4 (ix1 e) := by
  rw [val_main_v29_apply, val_main_v26_apply, val_main_v28_apply, val_main_v25_apply, val_main_c_5_apply]
  exact wrap_nonneg _ _ (by rw [h4 e]; exact Int.natCast_nonneg _)

/-- The gather's index pairs: component 0 of pair `e` is the (wrapped) division, -/
theorem gatherPair_div (e : Fin 1600000) :
    val_main_v17 (F := Ideal) x3 x5 (ix2 e (0 : Fin 2)) = val_main_v9 (F := Ideal) x5 (ix1 e) := by
  unfold val_main_v17
  rw [pair_left, val_main_v15_apply]
  exact congrArg _ (funext fun a => match a with | ⟨0, _⟩ => rfl)

/-- component 1 the (wrapped) source. -/
theorem gatherPair_src (e : Fin 1600000) :
    val_main_v17 (F := Ideal) x3 x5 (ix2 e (1 : Fin 2)) = val_main_v14 (F := Ideal) x3 (ix1 e) := by
  unfold val_main_v17
  rw [pair_right, val_main_v16_apply]
  exact congrArg _ (funext fun a => match a with | ⟨0, _⟩ => rfl)

/-- The scatter's index pairs: component 0 of pair `e` is the (wrapped) division, -/
theorem scatterPair_div (e : Fin 1600000) :
    val_main_v32 (F := Ideal) x4 x5 (ix2 e (0 : Fin 2)) = val_main_v24 (F := Ideal) x5 (ix1 e) := by
  unfold val_main_v32
  rw [pair_left, val_main_v30_apply]
  exact congrArg _ (funext fun a => match a with | ⟨0, _⟩ => rfl)

/-- component 1 the (wrapped) destination. -/
theorem scatterPair_dst (e : Fin 1600000) :
    val_main_v32 (F := Ideal) x4 x5 (ix2 e (1 : Fin 2)) = val_main_v29 (F := Ideal) x4 (ix1 e) := by
  unfold val_main_v32
  rw [pair_right, val_main_v31_apply]
  exact congrArg _ (funext fun a => match a with | ⟨0, _⟩ => rfl)

/-- THE GATHERED ROWS: edge `e` gets the projected row of `(v e, s e)`. -/
theorem gathered_apply (v : Fin 1600000 → Fin 9) (s : Fin 1600000 → Fin 100000)
    (h3 : ∀ e : Fin 1600000, (x3 (ix1 e)).toInt = ((s e).val : Int))
    (h5 : ∀ e : Fin 1600000, (x5 (ix1 e)).toInt = ((v e).val : Int)) (e : Fin 1600000) (o : Fin 64) :
    val_main_v18 (F := Ideal) x0 x1 x2 x3 x5 (ix2 e o) = proj x0 x1 x2 (v e) (s e) o := by
  unfold val_main_v18
  rw [show gather_S9x100000x64_S1600000x2_S1600000x64_1_01_n_n_01_1_1164
      = PairRows.gatherDims 9 100000 64 1600000 gather_S9x100000x64_S1600000x2_S1600000x64_1_01_n_n_01_1_1164_wf from rfl]
  rw [PairRows.gather_pairs_apply (by decide) (by decide)]
  have hv := (v e).isLt
  have hs := (s e).isLt
  have key : (ix3 (⟨min (val_main_v17 (F := Ideal) x3 x5 (ix2 e (0 : Fin 2))).toInt.toNat (9 - 1), by omega⟩ : Fin 9)
      (⟨min (val_main_v17 (F := Ideal) x3 x5 (ix2 e (1 : Fin 2))).toInt.toNat (100000 - 1), by omega⟩ : Fin 100000) o)
      = ix3 (v e) (s e) o := by
    refine congrArg₂ (fun a b => ix3 a b o) (Fin.ext ?_) (Fin.ext ?_)
    · show min (val_main_v17 (F := Ideal) x3 x5 (ix2 e (0 : Fin 2))).toInt.toNat (9 - 1) = (v e).val
      rw [gatherPair_div, div_wrap x5 v h5 e, h5 e]; omega
    · show min (val_main_v17 (F := Ideal) x3 x5 (ix2 e (1 : Fin 2))).toInt.toNat (100000 - 1) = (s e).val
      rw [gatherPair_src, src_wrap x3 s h3 e, h3 e]; omega
  rw [key, projected_apply]

/-- THE SUMMED TABLE at `(d, n, o)`: the edges of division `d` that end in `n`. -/
theorem summed_apply (v : Fin 1600000 → Fin 9) (s t : Fin 1600000 → Fin 100000) (h : EdgesAre x3 x4 x5 v s t)
    (d : Fin 9) (n : Fin 100000) (o : Fin 64) :
    val_main_v33 (F := Ideal) x0 x1 x2 x3 x4 x5 (ix3 d n o) = agg (proj x0 x1 x2) v s t d n o := by
  unfold val_main_v33
  rw [scatterAdd_eq_ideal]
  rw [show scatter_S9x100000x64_S1600000x2_S1600000x64_1_01_01_1
      = PairRows.scatterDims 9 100000 64 1600000 scatter_S9x100000x64_S1600000x2_S1600000x64_1_01_01_1_wf from rfl]
  rw [PairRows.scatterAdd_pairs_apply]
  rw [val_main_v19_apply, val_main_cst_apply, Ideal.ofBits_def, Ideal.ofBits_zero_f32, zero_add]
  unfold agg
  refine Finset.sum_congr rfl fun e _ => ?_
  rw [scatterPair_div, scatterPair_dst, div_wrap' x5 v h.div e, dst_wrap x4 t h.dst e, h.div e, h.dst e,
    gathered_apply x0 x1 x2 x3 x5 v s h.src h.div e o]
  by_cases hc : v e = d ∧ t e = n
  · rw [if_pos hc, if_pos ⟨by rw [hc.1], by rw [hc.2]⟩]
  · rw [if_neg hc, if_neg (fun hh => hc ⟨Fin.ext (by exact_mod_cast hh.1), Fin.ext (by exact_mod_cast hh.2)⟩)]

/-- THE REFERENCE'S RESULT is `outArr`. -/
theorem result_eq (v : Fin 1600000 → Fin 9) (s t : Fin 1600000 → Fin 100000) (h : EdgesAre x3 x4 x5 v s t) :
    val_main_v38 (F := Ideal) x0 x1 x2 x3 x4 x5 = outArr x0 x1 x2 v s t := by
  funext i
  obtain ⟨n, j, rfl⟩ : ∃ (n : Fin 100000) (j : Fin 576), i = ix2 n j := ⟨i 0, i 1, eq_ix2 i⟩
  rw [val_main_v38_apply, val_main_v37_apply, val_main_v35_apply, val_main_v34_apply, val_main_v36_apply,
    val_main_call0_v0_apply, val_main_call0_cst_apply, Ideal.ofBits_def, Ideal.ofBits_zero_f32, Ideal.maximumf_def,
    Ideal.mulf_def]
  have e1 : idx_main_v34 (idx_main_v35 (ix2 n j)) = ix3 (divOf j) n (featOf j) := by
    have hj := j.isLt; have hn := n.isLt
    funext a; refine Fin.ext ?_
    match a with
    | ⟨0, _⟩ => show (n.val * 576 + j.val) / 64 % 9 = j.val / 64; omega
    | ⟨1, _⟩ => show (n.val * 576 + j.val) / 576 = n.val; omega
    | ⟨2, _⟩ => show (n.val * 576 + j.val) % 64 = j.val % 64; omega
  have e2 : idx_main_v36 (ix2 n j) = ix2 n (0 : Fin 1) :=
    funext fun a => Fin.ext (by match a with | ⟨0, _⟩ => rfl | ⟨1, _⟩ => rfl)
  rw [e1, e2, summed_apply x0 x1 x2 x3 x4 x5 v s t h]
  rfl

end Cert.ReferenceIdeal.RefValue

end
-- ==== Proof.EdgeRange.lean ====
/-
  What the precondition says about the edge lists: every source and destination is a node (`0 ≤ · < 100000`) and every
  edge's division is a division (`0 ≤ · < 9`), so the three lists of 32-bit words, read signed, ARE maps from edges to
  nodes and to divisions.
-/
import proofs.«408371_j84593675862585_1_alg».proof.Pre_finite_inputs
import proofs.«408371_j84593675862585_1_alg».proof.Proof.MessageSpec
import Idealize.ShloMosaic.PureOps.Ideal
import Idealize.ShloMosaic.Lib.ValueIdx
import Idealize.ShloMosaic.Lib.ReduceAll
import Idealize.ShloMosaic.Lib.StableHlo.Predicate

noncomputable section

namespace Cert.EdgeRange

open Idealize.ShloMosaic Idealize.ShloMosaic.ValueIdx Cert.Pre_finite_inputs Cert.DivisionMessages

/-- A 32-bit word that tests `0 ≤ ·` and `· < N` signed, for a small bound N, reads signed as an integer in [0, N). -/
private theorem word_range (w : BitVec 32) (N : Nat) (hN : N < 2 ^ 31)
    (h0 : IntOp.cmpi .sge w 0#32 = 1#1) (hlt : IntOp.cmpi .slt w (BitVec.ofNat 32 N) = 1#1) :
    0 ≤ w.toInt ∧ w.toInt < (N : Int) := by
  rw [IntOp.cmpi_sge, show (0#32 : BitVec 32).toInt = 0 from by decide] at h0
  rw [IntOp.cmpi_slt, StableHlo.Predicate.toInt_ofNat_small N hN] at hlt
  exact ⟨h0, hlt⟩

/-- The rank-0 shape has one index. -/
private instance : Subsingleton S_.Idx := ⟨fun a b => funext fun d => d.elim0⟩

/-- "All entries of the list lie in [0, N)", as the all-reduction by `and` of the two signed compares against the
    broadcast constants 0 and N, says that each entry, read signed, is an integer in [0, N). -/
private theorem list_range [Cert.Pre_finite_inputs.Facts] (a : IVec S1600000 32) (N : Nat) (hN : N < 2 ^ 31) (init : IVec S_ 1)
    (h : Host.reduce IntOp.andi
        (andi (cmpi .sge a (broadcastInDim S1600000 ![] Facts.bcast_S_S1600000 (constantI S_ 32 0#32)))
          (cmpi .slt a (broadcastInDim S1600000 ![] Facts.bcast_S_S1600000 (constantI S_ 32 (BitVec.ofNat 32 N)))))
        init Facts.reducesTo_S1600000_S_d0 Facts.h_S_ ix0 = 1#1)
    (e : Fin 1600000) : 0 ≤ (a (ix1 e)).toInt ∧ (a (ix1 e)).toInt < (N : Int) := by
  have he := Host.reduce_andi_all _ _ _ _ _ h (ix1 e)
  simp only [andi, cmpi, broadcastInDim, constantI] at he
  rw [IntOp.andi_eq_one] at he
  exact word_range _ N hN he.1 he.2

/-- Under the precondition the edge lists are maps into the nodes and the divisions. -/
theorem edges_of_pre [Cert.Pre_finite_inputs.Facts]
    (a0 : FVec Ideal S100000x128 .f32) (a1 : FVec Ideal S100000x1 .f32) (a2 : FVec Ideal S9x64x128 .f32)
    (a3 a4 a5 : IVec S1600000 32)
    (h : Cert.Pre_finite_inputs.fn (F := Ideal) a0 a1 a2 a3 a4 a5 = fun _ => 1#1) :
    ∃ (v : Fin 1600000 → Fin 9) (s t : Fin 1600000 → Fin 100000), EdgesAre a3 a4 a5 v s t := by
  have h1 := congrFun h ix0
  dsimp only [fn, fn_part1, fn_part2] at h1
  simp only [andi] at h1
  obtain ⟨⟨⟨-, h3⟩, h4⟩, h5⟩ :
      ((_ ∧ _) ∧ _) ∧ _ := by
    rw [IntOp.andi_eq_one, IntOp.andi_eq_one, IntOp.andi_eq_one] at h1
    exact h1
  have r3 := list_range a3 100000 (by norm_num) _ h3
  have r4 := list_range a4 100000 (by norm_num) _ h4
  have r5 := list_range a5 9 (by norm_num) _ h5
  refine ⟨fun e => ⟨(a5 (ix1 e)).toInt.toNat, by have := r5 e; omega⟩,
    fun e => ⟨(a3 (ix1 e)).toInt.toNat, by have := r3 e; omega⟩,
    fun e => ⟨(a4 (ix1 e)).toInt.toNat, by have := r4 e; omega⟩, ?_, ?_, ?_⟩
  · intro e; exact (Int.toNat_of_nonneg (r3 e).1).symm
  · intro e; exact (Int.toNat_of_nonneg (r4 e).1).symm
  · intro e; exact (Int.toNat_of_nonneg (r5 e).1).symm

end Cert.EdgeRange

end
-- ==== Proof.lean ====
/-
  Message passing restricted to each division's edge subgraph: the kernel projects every node's features through every
  division's weights in one launch (scaled by the source norm), gathers and sums along the edges on the host through ONE
  flattened row number `division · 100000 + node`, and scales by the destination norm and cuts off negative parts in a second
  launch; the reference indexes the projected array by the pair (division, node). The two agree where every source and
  destination is a node and every edge's division is a division — the precondition —: there the flattened row number is the
  row of the pair, inside the table and not negative, and both results are `outArr` (Proof/MessageSpec.lean) of the inputs.

  The kernel's side: Proof/KernelRun.lean (the run, its result named), Proof/ProjectRegion.lean and Proof/FinalizeRegion.lean
  (each launch's output array as one function), Proof/KernelHost.lean and Proof/KernelChainAt.lean (the host stretch between
  them), Proof/KernelValue.lean. The reference's side: Proof/ReferenceValue.lean, over its run read one operation at a time.
  Proof/EdgeRange.lean reads the edge ranges out of the precondition.
-/
import proofs.«408371_j84593675862585_1_alg».proof.Defs
import proofs.«408371_j84593675862585_1_alg».proof.Proof.Gen.Kernel
import proofs.«408371_j84593675862585_1_alg».proof.Proof.Gen.Kernel.Skeleton
import proofs.«408371_j84593675862585_1_alg».proof.Proof.Gen.Kernel.Launch
import proofs.«408371_j84593675862585_1_alg».proof.Proof.Gen.Kernel.Points
import proofs.«408371_j84593675862585_1_alg».proof.Proof.Gen.Kernel.Frame
import proofs.«408371_j84593675862585_1_alg».proof.Proof.Gen.KernelIdeal
import proofs.«408371_j84593675862585_1_alg».proof.Proof.Gen.KernelIdeal.Skeleton
import proofs.«408371_j84593675862585_1_alg».proof.Proof.Gen.KernelIdeal.Launch
import proofs.«408371_j84593675862585_1_alg».proof.Proof.Gen.KernelIdeal.Points
import proofs.«408371_j84593675862585_1_alg».proof.Proof.Gen.KernelIdeal.Frame
import proofs.«408371_j84593675862585_1_alg».proof.Proof.Gen.ReferenceIdeal
import proofs.«408371_j84593675862585_1_alg».proof.Proof.Gen.Pre_finite_inputs
import proofs.«408371_j84593675862585_1_alg».proof.Proof.Gen.ReferenceIdeal.Run
import proofs.«408371_j84593675862585_1_alg».proof.Proof.Gen.ReferenceIdeal.Read
import proofs.«408371_j84593675862585_1_alg».proof.Proof.KernelRun
import proofs.«408371_j84593675862585_1_alg».proof.Proof.KernelValue
import proofs.«408371_j84593675862585_1_alg».proof.Proof.ReferenceValue
import proofs.«408371_j84593675862585_1_alg».proof.Proof.EdgeRange
import Idealize.ShloMosaic.Adequacy
import Idealize.ShloMosaic.Init

noncomputable section

namespace Cert.Proof

open Idealize.ShloMosaic Idealize.SL.Sem Cert.DivisionMessages

/-- The word-level kernel runs and leaves its arguments alone. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference is a host program: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end at `outArr` of the inputs, the edge maps read out of the precondition. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hE : ∀ c : Dev Cert.KernelIdeal.nD, ∃ (v : Fin 1600000 → Fin 9) (s t : Fin 1600000 → Fin 100000),
      EdgesAre (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) v s t :=
    fun c => Cert.EdgeRange.edges_of_pre _ _ _ _ _ _ (hpre c)
  choose v s t hvst using hE
  refine ⟨fun c => outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (v c) (s c) (t c), ?_, ?_⟩
  · exact (θ_run Cert.KernelIdeal.defs _ _).mono
      (fun r h c => ⟨(h c).1.trans (Cert.KernelIdeal.KernelValue.result_eq m ρ c (v c) (s c) (t c) (hvst c)), (h c).2⟩)
      (Cert.KernelIdeal.Run.run_main (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v38_eq, (hagree c).1, (hagree c).2.1, (hagree c).2.2.1,
      (hagree c).2.2.2.1, (hagree c).2.2.2.2.1, (hagree c).2.2.2.2.2]
    exact Cert.ReferenceIdeal.RefValue.result_eq _ _ _ _ _ _ (v c) (s c) (t c) (hvst c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
